-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x128 : Shape := ⟨2, ![1, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩
abbrev S1x10 : Shape := ⟨2, ![1, 10]⟩
abbrev S10 : Shape := ⟨1, ![10]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S1x128, .f32⟩
  | .hbm, ⟨5, _⟩ => ⟨S1x128, .f32⟩
  | .hbm, ⟨6, _⟩ => ⟨S1x1, .f32⟩
  | .hbm, ⟨7, _⟩ => ⟨S1x1, .f32⟩
  | .hbm, ⟨8, _⟩ => ⟨S1x10, .f32⟩
  | .hbm, ⟨9, _⟩ => ⟨S10, .f32⟩
  | .hbm, ⟨10, _⟩ => ⟨S1x10, .f32⟩
  | .hbm, ⟨11, _⟩ => ⟨S10, .f32⟩
  | .hbm, ⟨12, _⟩ => ⟨S_, .f32⟩
  | .hbm, ⟨13, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x128, .f32⟩
  | .local _ .vmem, ⟨5, _⟩ => ⟨S1x128, .f32⟩
  | .local _ .vmem, ⟨6, _⟩ => ⟨S1x1, .f32⟩
  | .local _ .vmem, ⟨7, _⟩ => ⟨S1x1, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v450 : BitVec 1 := Scalar.cmpi .eq arg0 c31_i32
  let v451 : BitVec 32 := Scalar.extui v450
  let c0_i32_198 : BitVec 32 := 0#32
  let v452 : BitVec 1 := Scalar.cmpi .ne v451 c0_i32_198
  v452

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S33554432_S262144x128 : S33554432.ShapeCasts S262144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  iota_S1x128_d1_w32 : S1x128.Iotas .tc 32 [1]
  natLt_1_32 : 1 < 32
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  broadcasts_S1x1_S1x128 : S1x1.Broadcasts S1x128
  reduces_S1x128_S1 : S1x128.Reduces [1] S1
  inb_S1x1_S1x1_0_0 : ∀ a, (![0, 0] : Fin 2 → Nat) a + S1x1.size a ≤ S1x1.size a
  h_S1x1 : 0 < S1x1.numel
  slices_S1x128_S1x10_0_0 : S1x128.Slices ![0, 0] S1x10
  shapeCasts_S1x10_S10 : S1x10.ShapeCasts S10
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S10 : Shape := ⟨1, ![10]⟩
abbrev S33554432x1 : Shape := ⟨2, ![33554432, 1]⟩

abbrev nBuf : Space → Nat
  | .hbm => 68
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S33554432, .f32⟩
  | .hbm, ⟨14, _⟩ => ⟨S33554432, .i32⟩
  | .hbm, ⟨15, _⟩ => ⟨S_, .i32⟩
  | .hbm, ⟨16, _⟩ => ⟨S33554432, .i32⟩
  | .hbm, ⟨17, _⟩ => ⟨S33554432, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S33554432, .i32⟩
  | .hbm, ⟨22, _⟩ => ⟨S33554432, .i32⟩
  | .hbm, ⟨23, _⟩ => ⟨S_, .i32⟩
  | .hbm, ⟨24, _⟩ => ⟨S33554432, .i32⟩
  | .hbm, ⟨25, _⟩ => ⟨S33554432, .i32⟩
  | .hbm, ⟨26, _⟩ => ⟨S_, .f32⟩
  | .hbm, ⟨27, _⟩ => ⟨S33554432, .f32⟩
  | .hbm, ⟨28, _⟩ => ⟨S_, .f32⟩
  | .hbm, ⟨29, _⟩ => ⟨S10, .f32⟩
  | .hbm, ⟨30, _⟩ => ⟨S33554432x1, .i32⟩
  | .hbm, ⟨31, _⟩ => ⟨S10, .f32⟩
  | .hbm, ⟨32, _⟩ => ⟨S33554432, .f32⟩
  | .hbm, ⟨33, _⟩ => ⟨S_, .f32⟩
  | .hbm, ⟨34, _⟩ => ⟨S10, .f32⟩
  | .hbm, ⟨35, _⟩ => ⟨S33554432x1, .i32⟩
  | .hbm, ⟨36, _⟩ => ⟨S10, .f32⟩
  | .hbm, ⟨37, _⟩ => ⟨S_, .f32⟩
  | .hbm, ⟨38, _⟩ => ⟨S10, .f32⟩
  | .hbm, ⟨39, _⟩ => ⟨S33554432x1, .i32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .i1⟩
  | .hbm, ⟨44, _⟩ => ⟨S_, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S10, .f32⟩
  | .hbm, ⟨49, _⟩ => ⟨S_, .f32⟩
  | .hbm, ⟨50, _⟩ => ⟨S_, .f32⟩
  | .hbm, ⟨51, _⟩ => ⟨S10, .f32⟩
  | .hbm, ⟨52, _⟩ => ⟨S10, .f32⟩
  | .hbm, ⟨53, _⟩ => ⟨S10, .f32⟩
  | .hbm, ⟨54, _⟩ => ⟨S_, .f32⟩
  | .hbm, ⟨55, _⟩ => ⟨S_, .f32⟩
  | .hbm, ⟨56, _⟩ => ⟨S10, .f32⟩
  | .hbm, ⟨57, _⟩ => ⟨S10, .f32⟩
  | .hbm, ⟨58, _⟩ => ⟨S10, .f32⟩
  | .hbm, ⟨59, _⟩ => ⟨S10, .f32⟩
  | .hbm, ⟨60, _⟩ => ⟨S_, .f32⟩
  | .hbm, ⟨61, _⟩ => ⟨S_, .f32⟩
  | .hbm, ⟨62, _⟩ => ⟨S10, .f32⟩
  | .hbm, ⟨63, _⟩ => ⟨S10, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_call1_v0 : Ref sig .tc := ⟨.hbm, 45, rfl⟩
abbrev main_call1_v1 : Ref sig .tc := ⟨.hbm, 46, rfl⟩
abbrev main_v26 : Ref sig .tc := ⟨.hbm, 47, rfl⟩
abbrev main_v27 : Ref sig .tc := ⟨.hbm, 48, rfl⟩
abbrev main_cst_10 : Ref sig .tc := ⟨.hbm, 49, rfl⟩
abbrev main_call2_v0 : Ref sig .tc := ⟨.hbm, 50, rfl⟩
abbrev main_call2_v1 : Ref sig .tc := ⟨.hbm, 51, rfl⟩
abbrev main_v28 : Ref sig .tc := ⟨.hbm, 52, rfl⟩
abbrev main_v29 : Ref sig .tc := ⟨.hbm, 53, rfl⟩
abbrev main_cst_11 : Ref sig .tc := ⟨.hbm, 54, rfl⟩
abbrev main_call3_v0 : Ref sig .tc := ⟨.hbm, 55, rfl⟩
abbrev main_call3_v1 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_12 : Ref sig .tc := ⟨.hbm, 60, rfl⟩
abbrev main_call4_v0 : Ref sig .tc := ⟨.hbm, 61, rfl⟩
abbrev main_call4_v1 : Ref sig .tc := ⟨.hbm, 62, rfl⟩
abbrev main_v33 : Ref sig .tc := ⟨.hbm, 63, rfl⟩
abbrev main_cst_13 : Ref sig .tc := ⟨.hbm, 64, rfl⟩
abbrev main_v34 : Ref sig .tc := ⟨.hbm, 65, rfl⟩
abbrev main_cst_14 : Ref sig .tc := ⟨.hbm, 66, rfl⟩
abbrev main_v35 : Ref sig .tc := ⟨.hbm, 67, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S10 : S_.BroadcastsInDim S10 (![] : Fin 0 → Fin S10.rank)
  bcast_S33554432_S33554432x1_0 : S33554432.BroadcastsInDim S33554432x1 (![0] : Fin 1 → Fin S33554432x1.rank)
  reducesTo_S10_S_d0 : S10.ReducesTo [0] S_
  h_S_ : 0 < S_.numel
  scatter_S10_S33554432x1_S33554432_n_0_0_1_wf : ScatterDims.WF S10 S33554432x1 S33554432 [] [0] [0] 1

variable [Facts₀]

def scatter_S10_S33554432x1_S33554432_n_0_0_1 : ScatterDims S10 S33554432x1 S33554432 where
  updateWindowDims := []
  insertedWindowDims := [0]
  scatterDimsToOperandDims := [0]
  indexVectorDim := 1
  wf := scatter_S10_S33554432x1_S33554432_n_0_0_1_wf

class Facts : Prop extends Facts₀ where

variable [Facts]
-- ==== Proof.RefRun.lean ====
/-
  The reference program's run, read back: every result of the host reference is the composed pure term of its
  operations applied to the two argument arrays, and each operation's value is read at an index from its operands.
-/
import proofs.«120145_j43946105373039_1_alg».proof.Proof.RefRunP
import proofs.«120145_j43946105373039_1_alg».proof.Proof.RefReadP
-- ==== Proof.Step.lean ====
/-
  One grid point of the histogram kernel, as pure functions of the point's two input tiles.

  A tile is an 8192 x 128 block of logits with the matching block of labels. Each entry has a bin index in 0..9
  (the clipped `ceil (10 * sigmoid x) - 1`). For each bin `b` the point computes three scalars: how many entries
  of the tile fall in bin `b`, the sum of their labels, and the sum of their confidences. Each scalar is added
  into lane `b` of a 1 x 128 accumulator row, one bin after the other: the row after the point is the row before
  it with bins 0, 1, ..., 9 bumped in that order.
-/
import proofs.«120145_j43946105373039_1_alg».proof.Proof.Gen.KernelIdeal.Skeleton

noncomputable section

namespace Cert.KernelIdeal.Hist

open Idealize.ShloMosaic Idealize.ShloMosaic.TcCoe Cert.KernelIdeal Cert.KernelIdeal.Gen

variable {F : FTy → Type} [FloatOps F]

/-- The float indicator of the entries of a tile whose bin index is `b`. -/
def mask (b : BitVec 32) (bins : IVec S8192x128 32) : FVec F S8192x128 .f32 :=
  sitofp .f32 (extui 32 (cmpi .eq bins (broadcast S8192x128 b)) natLt_1_32)

/-- The sum of all entries of a tile: each row summed over its 128 lanes, then the 8192 row sums summed. -/
def total (v : FVec F S8192x128 .f32) : FVec F S1x1 .f32 :=
  shapeCast S1x1
    (multiReduction .add [0] S1
      (shapeCast S8192x1 (multiReduction .add [1] S8192 v 0x00000000#32 reduces_S8192x128_S8192 (.inl rfl) rfl)
        shapeCasts_S8192_S8192x1)
      0x00000000#32 reduces_S8192x1_S1 (.inl rfl) rfl)
    shapeCasts_S1_S1x1

/-- The float indicator of lane `b` among the 128 lanes of an accumulator row. -/
def lane (b : BitVec 32) : FVec F S1x128 .f32 :=
  sitofp .f32 (extui 32 (cmpi .eq (iota .tc S1x128 32 [1] iota_S1x128_d1_w32) (broadcast S1x128 b)) natLt_1_32)

/-- One bin's update of an accumulator row: the scalar `s` is added into lane `b`, the other lanes get `s * 0`. -/
def bump (b : BitVec 32) (s : FVec F S1x1 .f32) (acc : Vec F S1x128 .f32) : Vec F S1x128 .f32 :=
  shapeCast S1x128 (addf acc (mulf (broadcastTo S1x128 s broadcasts_S1x1_S1x128) (lane b))) shapeCasts_S1x128_S1x128

/-- The bin index of every entry of a tile of logits. -/
abbrev binsOf (x0 : Vec F S8192x128 .f32) : IVec S8192x128 32 := k0_pay16 x0
/-- The confidence (sigmoid of the logit) of every entry of a tile. -/
abbrev confOf (x0 : Vec F S8192x128 .f32) : FVec F S8192x128 .f32 := k0_pay15 x0
/-- The label of every entry of a tile, as a float. -/
abbrev labOf (x1 : Vec F S8192x128 .i32) : FVec F S8192x128 .f32 := k0_pay14 x1

/-- The count row after a point: bins 0 to 9 bumped, in order, by the number of the tile's entries in the bin. -/
def stepCnt (x0 : Vec F S8192x128 .f32) (acc : Vec F S1x128 .f32) : Vec F S1x128 .f32 :=
  bump 9#32 (total (mask 9#32 (binsOf x0))) (bump 8#32 (total (mask 8#32 (binsOf x0))) (bump 7#32 (total (mask 7#32 (binsOf x0)))
  (bump 6#32 (total (mask 6#32 (binsOf x0))) (bump 5#32 (total (mask 5#32 (binsOf x0))) (bump 4#32 (total (mask 4#32 (binsOf x0)))
  (bump 3#32 (total (mask 3#32 (binsOf x0))) (bump 2#32 (total (mask 2#32 (binsOf x0))) (bump 1#32 (total (mask 1#32 (binsOf x0)))
  (bump 0#32 (total (mask 0#32 (binsOf x0))) acc)))))))))

/-- The label-sum row after a point: bin `b` bumped by the sum of the labels of the tile's entries in the bin. -/
def stepLab (x0 : Vec F S8192x128 .f32) (x1 : Vec F S8192x128 .i32) (acc : Vec F S1x128 .f32) : Vec F S1x128 .f32 :=
  bump 9#32 (total (mulf (mask 9#32 (binsOf x0)) (labOf x1))) (bump 8#32 (total (mulf (mask 8#32 (binsOf x0)) (labOf x1)))
  (bump 7#32 (total (mulf (mask 7#32 (binsOf x0)) (labOf x1))) (bump 6#32 (total (mulf (mask 6#32 (binsOf x0)) (labOf x1)))
  (bump 5#32 (total (mulf (mask 5#32 (binsOf x0)) (labOf x1))) (bump 4#32 (total (mulf (mask 4#32 (binsOf x0)) (labOf x1)))
  (bump 3#32 (total (mulf (mask 3#32 (binsOf x0)) (labOf x1))) (bump 2#32 (total (mulf (mask 2#32 (binsOf x0)) (labOf x1)))
  (bump 1#32 (total (mulf (mask 1#32 (binsOf x0)) (labOf x1))) (bump 0#32 (total (mulf (mask 0#32 (binsOf x0)) (labOf x1))) acc)))))))))

/-- The confidence-sum row after a point: bin `b` bumped by the sum of the confidences of the tile's entries in the bin. -/
def stepCnf (x0 : Vec F S8192x128 .f32) (acc : Vec F S1x128 .f32) : Vec F S1x128 .f32 :=
  bump 9#32 (total (mulf (mask 9#32 (binsOf x0)) (confOf x0))) (bump 8#32 (total (mulf (mask 8#32 (binsOf x0)) (confOf x0)))
  (bump 7#32 (total (mulf (mask 7#32 (binsOf x0)) (confOf x0))) (bump 6#32 (total (mulf (mask 6#32 (binsOf x0)) (confOf x0)))
  (bump 5#32 (total (mulf (mask 5#32 (binsOf x0)) (confOf x0))) (bump 4#32 (total (mulf (mask 4#32 (binsOf x0)) (confOf x0)))
  (bump 3#32 (total (mulf (mask 3#32 (binsOf x0)) (confOf x0))) (bump 2#32 (total (mulf (mask 2#32 (binsOf x0)) (confOf x0)))
  (bump 1#32 (total (mulf (mask 1#32 (binsOf x0)) (confOf x0))) (bump 0#32 (total (mulf (mask 0#32 (binsOf x0)) (confOf x0))) acc)))))))))

/-- The all-zero accumulator row the first point starts from. -/
abbrev zeroRow : Vec F S1x128 .f32 := k0_pay11

end Cert.KernelIdeal.Hist

end
-- ==== Proof.LibReadCov.lean ====
/-
  A general fact about a buffer that is stored whole several times and then loaded whole: the load reads the payload
  of the LAST store, whatever the earlier stores were.
-/
import Idealize.ShloMosaic.Lib.Pipeline.Value

noncomputable section

namespace Idealize.ShloMosaic.View

open Idealize.ShloMosaic

variable {Val : EltTy → Type} {S : Shape} {e : EltTy}

/-- A list of stores, newest first, whose newest store goes through the whole-shape rectangle at zero offsets: a load
    through that same rectangle reads the newest store's payload `w`. (The one-store case is the library's
    `readCov_unit_zero`; an accumulator updated several times inside one body needs it under a longer list.) -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.PiecesA.lean ====
/-
  The first grid point of the histogram kernel: the body first stores the all-zero row into each of the three
  accumulator rows, then bumps the ten bins as at every point. So each row the first point leaves is the zero row
  with bins 0 to 9 bumped in order.
-/
import proofs.«120145_j43946105373039_1_alg».proof.Proof.Gen.KernelIdeal.Frame
import proofs.«120145_j43946105373039_1_alg».proof.Proof.Step
import proofs.«120145_j43946105373039_1_alg».proof.Proof.LibReadCov
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Hist

open Cert.KernelIdeal Cert.KernelIdeal.Gen

variable {F : FTy → Type} [FloatOps F]

/-- The zero offsets of a whole-buffer rectangle, however spelt. -/
theorem hz : (![0, 0] : Fin 2 → Nat) = fun _ => 0 := funext fun a => by fin_cases a <;> rfl

variable (c : Dev nD) (i : grid0.Coords)
  (arg1 : Memref sig .tc .vmem S8192x128 .f32) (harg1 : arg1.IsWhole) (arg2 : Memref sig .tc .vmem S8192x128 .i32) (harg2 : arg2.IsWhole)
  (arg3 : Memref sig .tc .vmem S1x128 .f32) (harg3 : arg3.IsWhole) (arg4 : Memref sig .tc .vmem S1x128 .f32) (harg4 : arg4.IsWhole)
  (arg5 : Memref sig .tc .vmem S1x1 .f32) (harg5 : arg5.IsWhole) (arg6 : Memref sig .tc .vmem S1x1 .f32) (harg6 : arg6.IsWhole)
  (arg7 : Memref sig .tc .vmem S1x128 .f32) (harg7 : arg7.IsWhole) (arg8 : Memref sig .tc .vmem S1x128 .f32) (harg8 : arg8.IsWhole)
  (arg9 : Memref sig .tc .vmem S1x128 .f32) (harg9 : arg9.IsWhole)
  (x0 : Vec F S8192x128 .f32) (x1 : Vec F S8192x128 .i32)
  (hc0 : cond0_0 i) (hc1 : ¬cond0_1 i)

/-- The count row the first point leaves: the zero row with every bin bumped by the tile's count in that bin. -/
theorem sout_A_0 : sout0_A_0 c i arg1 harg1 arg2 harg2 arg3 harg3 arg4 harg4 arg5 harg5 arg6 harg6 arg7 harg7 arg8 harg8 arg9 harg9 hc0 hc1 x0 x1 = stepCnt x0 zeroRow := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x128) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

/-- The label-sum row the first point leaves. -/
theorem sout_A_1 : sout0_A_1 c i arg1 harg1 arg2 harg2 arg3 harg3 arg4 harg4 arg5 harg5 arg6 harg6 arg7 harg7 arg8 harg8 arg9 harg9 hc0 hc1 x0 x1 = stepLab x0 x1 zeroRow := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x128) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

/-- The confidence-sum row the first point leaves. -/
theorem sout_A_2 : sout0_A_2 c i arg1 harg1 arg2 harg2 arg3 harg3 arg4 harg4 arg5 harg5 arg6 harg6 arg7 harg7 arg8 harg8 arg9 harg9 hc0 hc1 x0 x1 = stepCnf x0 zeroRow := by
  unfold sout0_A_2
  rw [View.read_writes_eq_canon _ _ _ (scover0_A_2 c i arg1 harg1 arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x128) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

end Cert.KernelIdeal.Hist

end
-- ==== Proof.PiecesB.lean ====
/-
  A middle grid point (neither the first nor the last) of the histogram kernel: what the body leaves in the three
  accumulator rows it carries from point to point. The body stores each row ten times, once per bin, every store
  covering the whole row and every load reading the store before it; so the row the point leaves is the last store's
  payload, which is the row the point found with bins 0 to 9 bumped in order (Step.lean's stepCnt, stepLab, stepCnf).
-/
import proofs.«120145_j43946105373039_1_alg».proof.Proof.Gen.KernelIdeal.Frame
import proofs.«120145_j43946105373039_1_alg».proof.Proof.Step
import proofs.«120145_j43946105373039_1_alg».proof.Proof.LibReadCov
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Hist

open Cert.KernelIdeal Cert.KernelIdeal.Gen

variable {F : FTy → Type} [FloatOps F]

/-- The zero offsets of a whole-buffer rectangle, however spelt. -/
theorem hz : (![0, 0] : Fin 2 → Nat) = fun _ => 0 := funext fun a => by fin_cases a <;> rfl

variable (c : Dev nD) (i : grid0.Coords)
  (arg1 : Memref sig .tc .vmem S8192x128 .f32) (harg1 : arg1.IsWhole) (arg2 : Memref sig .tc .vmem S8192x128 .i32) (harg2 : arg2.IsWhole)
  (arg3 : Memref sig .tc .vmem S1x128 .f32) (harg3 : arg3.IsWhole) (arg4 : Memref sig .tc .vmem S1x128 .f32) (harg4 : arg4.IsWhole)
  (arg5 : Memref sig .tc .vmem S1x1 .f32) (harg5 : arg5.IsWhole) (arg6 : Memref sig .tc .vmem S1x1 .f32) (harg6 : arg6.IsWhole)
  (arg7 : Memref sig .tc .vmem S1x128 .f32) (harg7 : arg7.IsWhole) (arg8 : Memref sig .tc .vmem S1x128 .f32) (harg8 : arg8.IsWhole)
  (arg9 : Memref sig .tc .vmem S1x128 .f32) (harg9 : arg9.IsWhole)
  (x0 : Vec F S8192x128 .f32) (x1 : Vec F S8192x128 .i32)
  (xs0 xs1 xs2 : Vec F S1x128 .f32)
  (hc0 : ¬cond0_0 i) (hc1 : ¬cond0_1 i)

/-- The count row a middle point leaves: the row it found with every bin bumped by the tile's count in that bin. -/
theorem sout_B_0 : sout0_B_0 c i arg1 harg1 arg2 harg2 arg3 harg3 arg4 harg4 arg5 harg5 arg6 harg6 arg7 harg7 arg8 harg8 arg9 harg9 hc0 hc1 x0 x1 xs0 xs1 xs2 = stepCnt x0 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_cons_unit_zero (S := S1x128) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

/-- The label-sum row a middle point leaves. -/
theorem sout_B_1 : sout0_B_1 c i arg1 harg1 arg2 harg2 arg3 harg3 arg4 harg4 arg5 harg5 arg6 harg6 arg7 harg7 arg8 harg8 arg9 harg9 hc0 hc1 x0 x1 xs0 xs1 xs2 = stepLab x0 x1 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_cons_unit_zero (S := S1x128) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

/-- The confidence-sum row a middle point leaves. -/
theorem sout_B_2 : sout0_B_2 c i arg1 harg1 arg2 harg2 arg3 harg3 arg4 harg4 arg5 harg5 arg6 harg6 arg7 harg7 arg8 harg8 arg9 harg9 hc0 hc1 x0 x1 xs0 xs1 xs2 = stepCnf x0 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_cons_unit_zero (S := S1x128) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

end Cert.KernelIdeal.Hist

end
-- ==== Proof.PiecesC.lean ====
/-
  The last grid point of the histogram kernel: the body bumps the ten bins of the three accumulator rows as at every
  point, then reads the three rows back and stores the four results: the per-bin positive rate, the per-bin mean
  confidence, the sum over the lanes of their masked absolute difference, and its maximum. Each result is stored once,
  whole, so what the point leaves in a result's buffer is that store's payload, a function of the three final rows.
-/
import proofs.«120145_j43946105373039_1_alg».proof.Proof.Gen.KernelIdeal.Frame
import proofs.«120145_j43946105373039_1_alg».proof.Proof.Step
import proofs.«120145_j43946105373039_1_alg».proof.Proof.LibReadCov
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Hist

open Cert.KernelIdeal Cert.KernelIdeal.Gen

variable {F : FTy → Type} [FloatOps F]

/-- The zero offsets of a whole-buffer rectangle, however spelt. -/
theorem hz : (![0, 0] : Fin 2 → Nat) = fun _ => 0 := funext fun a => by fin_cases a <;> rfl

variable (c : Dev nD) (i : grid0.Coords)
  (arg1 : Memref sig .tc .vmem S8192x128 .f32) (harg1 : arg1.IsWhole) (arg2 : Memref sig .tc .vmem S8192x128 .i32) (harg2 : arg2.IsWhole)
  (arg3 : Memref sig .tc .vmem S1x128 .f32) (harg3 : arg3.IsWhole) (arg4 : Memref sig .tc .vmem S1x128 .f32) (harg4 : arg4.IsWhole)
  (arg5 : Memref sig .tc .vmem S1x1 .f32) (harg5 : arg5.IsWhole) (arg6 : Memref sig .tc .vmem S1x1 .f32) (harg6 : arg6.IsWhole)
  (arg7 : Memref sig .tc .vmem S1x128 .f32) (harg7 : arg7.IsWhole) (arg8 : Memref sig .tc .vmem S1x128 .f32) (harg8 : arg8.IsWhole)
  (arg9 : Memref sig .tc .vmem S1x128 .f32) (harg9 : arg9.IsWhole)
  (x0 : Vec F S8192x128 .f32) (x1 : Vec F S8192x128 .i32)
  (xs0 xs1 xs2 : Vec F S1x128 .f32)
  (hc0 : ¬cond0_0 i) (hc1 : cond0_1 i)

/-- The count row the last point leaves. -/
theorem sout_C_0 : sout0_C_0 c i arg1 harg1 arg2 harg2 arg3 harg3 arg4 harg4 arg5 harg5 arg6 harg6 arg7 harg7 arg8 harg8 arg9 harg9 hc0 hc1 x0 x1 xs0 xs1 xs2 = stepCnt x0 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S1x128) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

/-- The label-sum row the last point leaves. -/
theorem sout_C_1 : sout0_C_1 c i arg1 harg1 arg2 harg2 arg3 harg3 arg4 harg4 arg5 harg5 arg6 harg6 arg7 harg7 arg8 harg8 arg9 harg9 hc0 hc1 x0 x1 xs0 xs1 xs2 = stepLab x0 x1 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S1x128) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

/-- The confidence-sum row the last point leaves. -/
theorem sout_C_2 : sout0_C_2 c i arg1 harg1 arg2 harg2 arg3 harg3 arg4 harg4 arg5 harg5 arg6 harg6 arg7 harg7 arg8 harg8 arg9 harg9 hc0 hc1 x0 x1 xs0 xs1 xs2 = stepCnf x0 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S1x128) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

/-- The per-bin positive rate the last point stores: label sum over count where the count is positive, else zero. -/
theorem out_C_2 : out0_C_2 c i arg1 harg1 arg2 harg2 arg3 harg3 arg4 harg4 arg5 harg5 arg6 harg6 arg7 harg7 arg8 harg8 arg9 harg9 hc0 hc1 x0 x1 xs0 xs1 xs2 = k0_pay6 (stepCnt x0 xs0) (stepLab x0 x1 xs1) := by
  unfold out0_C_2
  rw [View.read_writes_eq_canon _ _ _ (cover0_C_2 c i arg1 harg1 arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S1x128) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

/-- The per-bin mean confidence the last point stores. -/
theorem out_C_3 : out0_C_3 c i arg1 harg1 arg2 harg2 arg3 harg3 arg4 harg4 arg5 harg5 arg6 harg6 arg7 harg7 arg8 harg8 arg9 harg9 hc0 hc1 x0 x1 xs0 xs1 xs2 = k0_pay7 (stepCnt x0 xs0) (stepCnf x0 xs2) := by
  unfold out0_C_3
  rw [View.read_writes_eq_canon _ _ _ (cover0_C_3 c i arg1 harg1 arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S1x128) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

/-- The calibration error the last point stores: the lane sum of the masked absolute differences. -/
theorem out_C_4 : out0_C_4 c i arg1 harg1 arg2 harg2 arg3 harg3 arg4 harg4 arg5 harg5 arg6 harg6 arg7 harg7 arg8 harg8 arg9 harg9 hc0 hc1 x0 x1 xs0 xs1 xs2
    = k0_pay9 (stepCnt x0 xs0) (stepLab x0 x1 xs1) (stepCnf x0 xs2) := by
  unfold out0_C_4
  rw [View.read_writes_eq_canon _ _ _ (cover0_C_4 c i arg1 harg1 arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S1x1) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

/-- The maximum calibration error the last point stores: the lane maximum of the masked absolute differences. -/
theorem out_C_5 : out0_C_5 c i arg1 harg1 arg2 harg2 arg3 harg3 arg4 harg4 arg5 harg5 arg6 harg6 arg7 harg7 arg8 harg8 arg9 harg9 hc0 hc1 x0 x1 xs0 xs1 xs2
    = k0_pay10 (stepCnt x0 xs0) (stepLab x0 x1 xs1) (stepCnf x0 xs2) := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S1x1) hz]
  simp only [View.readAt_eq_ld, harg1.read_unread, harg2.read_unread, harg7.read_unread, harg8.read_unread, harg9.read_unread,
    View.ld_unit_zero (S := S1x128) hz, View.ld_unit_zero (S := S8192x128) hz, View.ld_unit_zero (S := S1x1) hz,
    View.readCov_cons_unit_zero (S := S1x128) _ hz, View.readCov_unit_zero (S := S1x128) _ hz]
  rfl

end Cert.KernelIdeal.Hist

end
-- ==== Proof.Points.lean ====
/-
  The three accumulator rows after each grid point, by induction on the point. The first point starts from the zero
  row; every later point starts from what the point before left. After point `n` the rows are therefore the fold of
  the per-point step over the tiles of points 0 to `n`. At the last point the four results are computed from the
  three final rows.
-/
import proofs.«120145_j43946105373039_1_alg».proof.Proof.PiecesA
import proofs.«120145_j43946105373039_1_alg».proof.Proof.PiecesB
import proofs.«120145_j43946105373039_1_alg».proof.Proof.PiecesC

set_option maxRecDepth 16384

noncomputable section

open Idealize.ShloMosaic Idealize.ShloMosaic.TcCoe Idealize.SL.Sem

namespace Cert.KernelIdeal.Hist

open Cert.KernelIdeal Cert.KernelIdeal.Gen

variable {F : FTy → Type} [FloatOps F]
variable (m : (ℓ : Loc nD τ sig) → Buf (Elt F) ℓ)

/-- The tile of logits grid point `t` reads. -/
abbrev xblk (c : Dev nD) (t : Fin cfg0.N) : Vec F S8192x128 .f32 := iblk m c 0 t
/-- The tile of labels grid point `t` reads. -/
abbrev yblk (c : Dev nD) (t : Fin cfg0.N) : Vec F S8192x128 .i32 := iblk m c 1 t

/-- The count, label-sum and confidence-sum rows after grid point `n`: the step of point `n`'s tiles applied to the
    rows after point `n - 1`, starting from the zero row. -/
def rows (c : Dev nD) : (n : ℕ) → n < cfg0.N → Vec F S1x128 .f32 × Vec F S1x128 .f32 × Vec F S1x128 .f32
  | 0, h => (stepCnt (xblk m c ⟨0, h⟩) zeroRow, stepLab (xblk m c ⟨0, h⟩) (yblk m c ⟨0, h⟩) zeroRow,
      stepCnf (xblk m c ⟨0, h⟩) zeroRow)
  | n + 1, h => (stepCnt (xblk m c ⟨n + 1, h⟩) (rows c n (Nat.lt_of_succ_lt h)).1,
      stepLab (xblk m c ⟨n + 1, h⟩) (yblk m c ⟨n + 1, h⟩) (rows c n (Nat.lt_of_succ_lt h)).2.1,
      stepCnf (xblk m c ⟨n + 1, h⟩) (rows c n (Nat.lt_of_succ_lt h)).2.2)

/-- What the three carried rows hold after point `n` is the fold `rows`: by induction on the point, each of the three
    kinds of point (first, middle, last) leaving the step of its tiles over what the point before left. -/
theorem scratch_eq (c : Dev nD) : ∀ (n : ℕ) (h : n < cfg0.N), (outsAt0 m c n h).2.2.2.2 = rows m c n h
  | 0, h => by
    rw [outsAt0_A m c ⟨0, h⟩ rfl (by dsimp only; omega)]
    dsimp only
    rw [sout_A_0, sout_A_1, sout_A_2]
    rfl
  | n + 1, h => by
    have hN : cfg0.N = 32 := N_0
    have ih := scratch_eq c n (Nat.lt_of_succ_lt h)
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [sout_C_0, sout_C_1, sout_C_2]
      show (stepCnt _ (outsAt0 m c n _).2.2.2.2.1, stepLab _ _ (outsAt0 m c n _).2.2.2.2.2.1,
        stepCnf _ (outsAt0 m c n _).2.2.2.2.2.2) = _
      rw [ih]
      rfl
    · rw [outsAt0_B m c ⟨n + 1, h⟩ h0 h1]
      dsimp only
      rw [sout_B_0, sout_B_1, sout_B_2]
      show (stepCnt _ (outsAt0 m c n _).2.2.2.2.1, stepLab _ _ (outsAt0 m c n _).2.2.2.2.2.1,
        stepCnf _ (outsAt0 m c n _).2.2.2.2.2.2) = _
      rw [ih]
      rfl

/-- The four results the last grid point stores, as functions of the three final rows: the per-bin positive rate, the
    per-bin mean confidence, the sum over the lanes of their masked absolute difference, and its maximum. -/
theorem outs_last (c : Dev nD) (h : 31 < cfg0.N) :
    (outsAt0 m c 31 h).1 = k0_pay6 (rows m c 31 h).1 (rows m c 31 h).2.1
    ∧ (outsAt0 m c 31 h).2.1 = k0_pay7 (rows m c 31 h).1 (rows m c 31 h).2.2
    ∧ (outsAt0 m c 31 h).2.2.1 = k0_pay9 (rows m c 31 h).1 (rows m c 31 h).2.1 (rows m c 31 h).2.2
    ∧ (outsAt0 m c 31 h).2.2.2.1 = k0_pay10 (rows m c 31 h).1 (rows m c 31 h).2.1 (rows m c 31 h).2.2 := by
  have h0 : ¬(⟨31, h⟩ : Fin cfg0.N).val % 32 = 0 := by dsimp only; omega
  have h1 : (⟨31, h⟩ : Fin cfg0.N).val % 32 = 31 := rfl
  have ih := scratch_eq m c 30 (Nat.lt_of_succ_lt h)
  rw [outsAt0_C m c ⟨31, h⟩ h0 h1]
  dsimp only
  rw [out_C_2, out_C_3, out_C_4, out_C_5]
  show k0_pay6 (stepCnt _ (outsAt0 m c 30 _).2.2.2.2.1) (stepLab _ _ (outsAt0 m c 30 _).2.2.2.2.2.1) = _
    ∧ k0_pay7 (stepCnt _ (outsAt0 m c 30 _).2.2.2.2.1) (stepCnf _ (outsAt0 m c 30 _).2.2.2.2.2.2) = _
    ∧ k0_pay9 (stepCnt _ (outsAt0 m c 30 _).2.2.2.2.1) (stepLab _ _ (outsAt0 m c 30 _).2.2.2.2.2.1)
        (stepCnf _ (outsAt0 m c 30 _).2.2.2.2.2.2) = _
    ∧ k0_pay10 (stepCnt _ (outsAt0 m c 30 _).2.2.2.2.1) (stepLab _ _ (outsAt0 m c 30 _).2.2.2.2.2.1)
        (stepCnf _ (outsAt0 m c 30 _).2.2.2.2.2.2) = _
  rw [ih]
  exact ⟨rfl, rfl, rfl, rfl⟩

end Cert.KernelIdeal.Hist

end
-- ==== Proof.LaneMath.lean ====
/-
  One grid point of the histogram kernel, read lane by lane over the extended reals. Bumping bin `b` adds
  `s * 1` to lane `b` and `s * 0 = 0` to every other lane, so after the ten bumps lane `l` has gained the scalar of
  bin `l` when `l < 10` and nothing otherwise. The scalar of bin `b` is the sum over the tile of `u` at the entries
  whose bin index is `b`: the float mask is `1` there and `0` elsewhere, `1 * u = u` and `0 * u = 0`.
-/
import proofs.«120145_j43946105373039_1_alg».proof.Proof.Step
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.KernelIdeal.Hist

open Cert.KernelIdeal Cert.KernelIdeal.Gen Idealize.ShloMosaic.ValueIdx

/-- What one tile adds to lane `l` of an accumulator row: for `l < 10`, the sum of `u` over the tile's entries whose bin
    index is `l`; for the other lanes nothing. -/
def tileSum (bins : IVec S8192x128 32) (u : S8192x128.Idx → EReal) (l : Fin 128) : EReal :=
  if l.val < 10 then
    ∑ r : Fin 8192, ∑ q : Fin 128, (if bins (ix2 r q) = BitVec.ofNat 32 l.val then u (ix2 r q) else 0)
  else 0

/-- The zero row is zero in every lane. -/
theorem zeroRow_lane (l : Fin 128) : (zeroRow : Vec Ideal S1x128 .f32) (ix2 (0 : Fin 1) l) = 0 := by
  show (k0_pay11 (F := Ideal)) (ix2 (0 : Fin 1) l) = 0
  unfold k0_pay11
  simp only [shapeCast_self, broadcast_apply]
  exact Ideal.ofBits_zero_f32

/-! ## Words and indicators -/

/-- The float indicator of "two words are equal": the comparison bit, widened and read as a signed integer, is the
    extended real `1` when they are equal and `0` when they are not. -/
theorem ind_word (x y : BitVec 32) :
    FloatOps.sitofp (F := Ideal) .f32 ((IntOp.cmpi .eq x y).setWidth 32) = if x = y then (1 : EReal) else 0 := by
  by_cases h : x = y
  · subst h
    have e : (IntOp.cmpi .eq x x).setWidth 32 = 1#32 := by simp [IntOp.cmpi]
    rw [e, if_pos rfl]
    show (((1#32 : BitVec 32).toInt : ℝ) : EReal) = 1
    have : (1#32 : BitVec 32).toInt = 1 := by decide
    rw [this, Int.cast_one, EReal.coe_one]
  · have hb : (x == y) = false := by simpa using h
    have e : (IntOp.cmpi .eq x y).setWidth 32 = 0#32 := by
      simp only [IntOp.cmpi, hb]; decide
    rw [e, if_neg h]
    show (((0#32 : BitVec 32).toInt : ℝ) : EReal) = 0
    have : (0#32 : BitVec 32).toInt = 0 := by decide
    rw [this, Int.cast_zero, EReal.coe_zero]

/-- Lane `l` of the indicator row of bin `b`: the lane's own number, as a word, compared with `b`. -/
theorem lane_apply (b : BitVec 32) (l : Fin 128) :
    (lane b : FVec Ideal S1x128 .f32) (ix2 (0 : Fin 1) l) = if BitVec.ofNat 32 l.val = b then 1 else 0 := by
  unfold lane
  rw [sitofp_apply, extui_apply]
  show FloatOps.sitofp .f32 ((IntOp.cmpi .eq (iota .tc S1x128 32 [1] iota_S1x128_d1_w32 (ix2 0 l))
    (broadcast S1x128 b (ix2 0 l))).setWidth 32) = _
  rw [iota_single_apply, broadcast_apply, ind_word]

/-- Entry `(r, q)` of the float mask of bin `b`: `1` where the entry's bin index is `b`, `0` elsewhere. -/
theorem mask_apply (b : BitVec 32) (bins : IVec S8192x128 32) (r : Fin 8192) (q : Fin 128) :
    (mask b bins : FVec Ideal S8192x128 .f32) (ix2 r q) = if bins (ix2 r q) = b then 1 else 0 := by
  unfold mask
  rw [sitofp_apply, extui_apply]
  show FloatOps.sitofp .f32 ((IntOp.cmpi .eq (bins (ix2 r q)) (broadcast S8192x128 b (ix2 r q))).setWidth 32) = _
  rw [broadcast_apply, ind_word]

/-- For a lane number `l < 128` and a literal `b < 128`, the two 32-bit words are equal exactly when the numbers are. -/
theorem word_eq_iff (l : Fin 128) (b : ℕ) (hb : b < 128) : BitVec.ofNat 32 l.val = BitVec.ofNat 32 b ↔ l.val = b := by
  constructor
  · intro h
    have h' := congrArg BitVec.toNat h
    simp only [BitVec.toNat_ofNat] at h'
    have := l.isLt
    omega
  · intro h; rw [h]

/-! ## The sum of a tile -/

/-- A vector viewed as a one-column matrix reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a tile is the double sum over its rows and lanes: the outer reduction runs over the 8192 row sums, each
    of which is the sum of the row's 128 lanes. -/
theorem total_apply (v : FVec Ideal S8192x128 .f32) :
    total v (ix2 (0 : Fin 1) (0 : Fin 1)) = ∑ r : Fin 8192, ∑ q : Fin 128, v (ix2 r q) := by
  unfold total
  rw [shapeCast_a_1a_apply]
  refine (Ideal.multiReduction_add_single _ _ reduces_S8192x1_S1 _ _ _).trans ?_
  refine Finset.sum_congr rfl fun (r : Fin 8192) _ => ?_
  have e1 : reduces_S8192x1_S1.lift (ix1 (0 : Fin 1)) r = ix2 (r : Fin 8192) (0 : Fin 1) := by
    funext c; match c with | ⟨0, _⟩ => rfl | ⟨1, _⟩ => rfl
  rw [e1, shapeCast_a_a1_apply]
  refine (Ideal.multiReduction_add_single _ _ reduces_S8192x128_S8192 _ _ _).trans ?_
  refine Finset.sum_congr rfl fun (q : Fin 128) _ => ?_
  have e2 : reduces_S8192x128_S8192.lift (ix1 (r : Fin 8192)) q = ix2 (r : Fin 8192) (q : Fin 128) := by
    funext c; match c with | ⟨0, _⟩ => rfl | ⟨1, _⟩ => rfl
  rw [e2]

/-- The tile's sum of the float mask of bin `b`: one for each entry whose bin index is `b`. -/
theorem total_mask (b : BitVec 32) (bins : IVec S8192x128 32) :
    total (mask (F := Ideal) b bins) (ix2 (0 : Fin 1) (0 : Fin 1))
      = ∑ r : Fin 8192, ∑ q : Fin 128, (if bins (ix2 r q) = b then (1 : EReal) else 0) := by
  rw [total_apply]
  refine Finset.sum_congr rfl fun r _ => Finset.sum_congr rfl fun q _ => ?_
  rw [mask_apply]

/-- The tile's sum of the float mask of bin `b` times `u`: `u` at each entry whose bin index is `b`, since
    `1 * u = u` and `0 * u = 0`. -/
theorem total_mask_mul (b : BitVec 32) (bins : IVec S8192x128 32) (u : FVec Ideal S8192x128 .f32) :
    total (mulf (mask b bins) u) (ix2 (0 : Fin 1) (0 : Fin 1))
      = ∑ r : Fin 8192, ∑ q : Fin 128, (if bins (ix2 r q) = b then u (ix2 r q) else 0) := by
  rw [total_apply]
  refine Finset.sum_congr rfl fun r _ => Finset.sum_congr rfl fun q _ => ?_
  rw [mulf_apply, mask_apply, ite_mul, one_mul, zero_mul]

/-! ## One bump, and the ten bumps of a point -/

/-- Lane `l` after one bump: what it held plus the scalar times the lane's indicator. -/
theorem bump_apply (b : BitVec 32) (s : FVec Ideal S1x1 .f32) (acc : Vec Ideal S1x128 .f32) (l : Fin 128) :
    bump b s acc (ix2 (0 : Fin 1) l)
      = acc (ix2 (0 : Fin 1) l) + s (ix2 (0 : Fin 1) (0 : Fin 1)) * (if BitVec.ofNat 32 l.val = b then 1 else 0) := by
  unfold bump
  rw [shapeCast_self, addf_apply, mulf_apply, lane_apply]
  rw [broadcastTo_apply s broadcasts_S1x1_S1x128 (ix2 (0 : Fin 1) l) (ix2 (0 : Fin 1) (0 : Fin 1))
    (fun a => match a with | ⟨0, _⟩ => rfl | ⟨1, _⟩ => rfl)]

/-- Ten scalars each times its lane indicator, added to `a` one after the other: for `l < 10` exactly the indicator of
    bin `l` is `1`, so the sum is `a` plus the scalar of bin `l`; for `l ≥ 10` every indicator is `0` and the sum is `a`. -/
theorem ten_terms (a : EReal) (t : BitVec 32 → EReal) (l : Fin 128) :
    a + t 0#32 * (if BitVec.ofNat 32 l.val = 0#32 then 1 else 0) + t 1#32 * (if BitVec.ofNat 32 l.val = 1#32 then 1 else 0)
      + t 2#32 * (if BitVec.ofNat 32 l.val = 2#32 then 1 else 0) + t 3#32 * (if BitVec.ofNat 32 l.val = 3#32 then 1 else 0)
      + t 4#32 * (if BitVec.ofNat 32 l.val = 4#32 then 1 else 0) + t 5#32 * (if BitVec.ofNat 32 l.val = 5#32 then 1 else 0)
      + t 6#32 * (if BitVec.ofNat 32 l.val = 6#32 then 1 else 0) + t 7#32 * (if BitVec.ofNat 32 l.val = 7#32 then 1 else 0)
      + t 8#32 * (if BitVec.ofNat 32 l.val = 8#32 then 1 else 0) + t 9#32 * (if BitVec.ofNat 32 l.val = 9#32 then 1 else 0)
      = a + if l.val < 10 then t (BitVec.ofNat 32 l.val) else 0 := by
  simp only [word_eq_iff l 0 (by omega), word_eq_iff l 1 (by omega), word_eq_iff l 2 (by omega), word_eq_iff l 3 (by omega),
    word_eq_iff l 4 (by omega), word_eq_iff l 5 (by omega), word_eq_iff l 6 (by omega), word_eq_iff l 7 (by omega),
    word_eq_iff l 8 (by omega), word_eq_iff l 9 (by omega)]
  by_cases h : l.val < 10
  · rw [if_pos h]
    have hc : l.val = 0 ∨ l.val = 1 ∨ l.val = 2 ∨ l.val = 3 ∨ l.val = 4 ∨ l.val = 5 ∨ l.val = 6 ∨ l.val = 7
        ∨ l.val = 8 ∨ l.val = 9 := by omega
    rcases hc with hk | hk | hk | hk | hk | hk | hk | hk | hk | hk <;> simp [hk]
  · rw [if_neg h]
    have h0 : ¬ l.val = 0 := by omega
    have h1 : ¬ l.val = 1 := by omega
    have h2 : ¬ l.val = 2 := by omega
    have h3 : ¬ l.val = 3 := by omega
    have h4 : ¬ l.val = 4 := by omega
    have h5 : ¬ l.val = 5 := by omega
    have h6 : ¬ l.val = 6 := by omega
    have h7 : ¬ l.val = 7 := by omega
    have h8 : ¬ l.val = 8 := by omega
    have h9 : ¬ l.val = 9 := by omega
    simp only [if_neg h0, if_neg h1, if_neg h2, if_neg h3, if_neg h4, if_neg h5, if_neg h6, if_neg h7, if_neg h8, if_neg h9,
      mul_zero, add_zero]

/-- Lane `l` after bins 0 to 9 are bumped in order, bin `b` by the scalar `s b`: what the lane held plus the scalar of
    bin `l` when `l < 10`, and what it held otherwise. -/
theorem bumps_lane (s : BitVec 32 → FVec Ideal S1x1 .f32) (acc : Vec Ideal S1x128 .f32) (l : Fin 128) :
    bump 9#32 (s 9#32) (bump 8#32 (s 8#32) (bump 7#32 (s 7#32) (bump 6#32 (s 6#32) (bump 5#32 (s 5#32)
      (bump 4#32 (s 4#32) (bump 3#32 (s 3#32) (bump 2#32 (s 2#32) (bump 1#32 (s 1#32) (bump 0#32 (s 0#32) acc)))))))))
      (ix2 (0 : Fin 1) l)
      = acc (ix2 (0 : Fin 1) l) + if l.val < 10 then s (BitVec.ofNat 32 l.val) (ix2 (0 : Fin 1) (0 : Fin 1)) else 0 := by
  simp only [bump_apply]
  exact ten_terms _ (fun b => s b (ix2 (0 : Fin 1) (0 : Fin 1))) l

/-! ## The three rows after a point -/

/-- Lane `l` of the count row after a point: what it held plus the number of the tile's entries in bin `l`. -/
theorem stepCnt_lane (x0 : Vec Ideal S8192x128 .f32) (acc : Vec Ideal S1x128 .f32) (l : Fin 128) :
    stepCnt x0 acc (ix2 (0 : Fin 1) l) = acc (ix2 (0 : Fin 1) l) + tileSum (binsOf x0) (fun _ => 1) l := by
  unfold stepCnt
  rw [bumps_lane (fun b => total (mask b (binsOf x0))) acc l]
  unfold tileSum
  by_cases h : l.val < 10
  · rw [if_pos h, if_pos h, total_mask]
  · rw [if_neg h, if_neg h]

/-- Lane `l` of the label-sum row after a point: what it held plus the labels of the tile's entries in bin `l`. -/
theorem stepLab_lane (x0 : Vec Ideal S8192x128 .f32) (x1 : Vec Ideal S8192x128 .i32) (acc : Vec Ideal S1x128 .f32) (l : Fin 128) :
    stepLab x0 x1 acc (ix2 (0 : Fin 1) l) = acc (ix2 (0 : Fin 1) l) + tileSum (binsOf x0) (labOf x1) l := by
  unfold stepLab
  rw [bumps_lane (fun b => total (mulf (mask b (binsOf x0)) (labOf x1))) acc l]
  unfold tileSum
  by_cases h : l.val < 10
  · rw [if_pos h, if_pos h, total_mask_mul]
  · rw [if_neg h, if_neg h]

/-- Lane `l` of the confidence-sum row after a point: what it held plus the confidences of the tile's entries in bin `l`. -/
theorem stepCnf_lane (x0 : Vec Ideal S8192x128 .f32) (acc : Vec Ideal S1x128 .f32) (l : Fin 128) :
    stepCnf x0 acc (ix2 (0 : Fin 1) l) = acc (ix2 (0 : Fin 1) l) + tileSum (binsOf x0) (confOf x0) l := by
  unfold stepCnf
  rw [bumps_lane (fun b => total (mulf (mask b (binsOf x0)) (confOf x0))) acc l]
  unfold tileSum
  by_cases h : l.val < 10
  · rw [if_pos h, if_pos h, total_mask_mul]
  · rw [if_neg h, if_neg h]

end Cert.KernelIdeal.Hist

end
-- ==== Proof.Fold.lean ====
/-
  The final accumulator rows, lane by lane over the extended reals: lane `l` of a row after the last grid point is
  the sum over the 32 points of what each point's tile added to lane `l`. The rows start at zero, each point adds
  its tile's contribution to what the point before left, and addition of extended reals is associative, so the
  running value after point `n` is the sum of the contributions of points 0 to `n`.
-/
import proofs.«120145_j43946105373039_1_alg».proof.Proof.Points
import proofs.«120145_j43946105373039_1_alg».proof.Proof.LaneMath

set_option maxRecDepth 16384

noncomputable section

open Idealize.ShloMosaic Idealize.ShloMosaic.TcCoe Idealize.SL.Sem

namespace Cert.KernelIdeal.Hist

open Cert.KernelIdeal Cert.KernelIdeal.Gen Idealize.ShloMosaic.ValueIdx

/-- A running value that starts at the first point's contribution and gains each later point's contribution is,
    after point `n`, the sum of the contributions of the points up to `n`. -/
theorem running_sum (T : Fin cfg0.N → EReal) (a : (n : ℕ) → n < cfg0.N → EReal)
    (h0 : ∀ h, a 0 h = T ⟨0, h⟩)
    (hs : ∀ n h, a (n + 1) h = a n (Nat.lt_of_succ_lt h) + T ⟨n + 1, h⟩) :
    ∀ (n : ℕ) (h : n < cfg0.N), a n h = ∑ t : Fin cfg0.N, (if t.val ≤ n then T t else 0)
  | 0, h => by
    rw [h0 h, Finset.sum_eq_single (⟨0, h⟩ : Fin cfg0.N)]
    · simp
    · intro t _ ht
      have : ¬t.val ≤ 0 := fun hle => ht (Fin.ext (Nat.le_zero.mp hle))
      rw [if_neg this]
    · intro hn; exact absurd (Finset.mem_univ _) hn
  | n + 1, h => by
    rw [hs n h, running_sum T a h0 hs n (Nat.lt_of_succ_lt h)]
    have split : ∀ t : Fin cfg0.N, (if t.val ≤ n + 1 then T t else 0)
        = (if t.val ≤ n then T t else 0) + (if t = (⟨n + 1, h⟩ : Fin cfg0.N) then T t else 0) := by
      intro t
      by_cases h1 : t.val ≤ n
      · have h2 : t ≠ (⟨n + 1, h⟩ : Fin cfg0.N) := fun e => by rw [e] at h1; dsimp only at h1; omega
        rw [if_pos h1, if_pos (Nat.le_succ_of_le h1), if_neg h2, add_zero]
      · by_cases h3 : t = (⟨n + 1, h⟩ : Fin cfg0.N)
        · subst h3; rw [if_neg h1, if_pos (le_refl _), if_pos rfl, zero_add]
        · have h4 : ¬t.val ≤ n + 1 := fun hle => h3 (Fin.ext (by dsimp only; omega))
          rw [if_neg h1, if_neg h4, if_neg h3, add_zero]
    simp only [split, Finset.sum_add_distrib, Finset.sum_ite_eq', Finset.mem_univ, if_true]

/-- After the last point every point's contribution is in. -/
theorem running_sum_last (T : Fin cfg0.N → EReal) (a : (n : ℕ) → n < cfg0.N → EReal)
    (h0 : ∀ h, a 0 h = T ⟨0, h⟩)
    (hs : ∀ n h, a (n + 1) h = a n (Nat.lt_of_succ_lt h) + T ⟨n + 1, h⟩) (h : 31 < cfg0.N) :
    a 31 h = ∑ t : Fin cfg0.N, T t := by
  rw [running_sum T a h0 hs 31 h]
  refine Finset.sum_congr rfl fun t _ => if_pos ?_
  have := t.isLt; have hN : cfg0.N = 32 := N_0; omega

variable (m : (ℓ : Loc nD τ sig) → Buf (Elt Ideal) ℓ)

/-- Lane `l` of the final count row: the tiles' counts of bin `l`, summed over the points. -/
theorem cnt_final (c : Dev nD) (h : 31 < cfg0.N) (l : Fin 128) :
    (rows m c 31 h).1 (ix2 (0 : Fin 1) l) = ∑ t : Fin cfg0.N, tileSum (binsOf (xblk m c t)) (fun _ => 1) l :=
  running_sum_last (fun t => tileSum (binsOf (xblk m c t)) (fun _ => 1) l)
    (fun n hn => (rows m c n hn).1 (ix2 (0 : Fin 1) l))
    (fun h' => by
      show stepCnt (xblk m c ⟨0, h'⟩) zeroRow (ix2 (0 : Fin 1) l) = _
      rw [stepCnt_lane, zeroRow_lane, zero_add])
    (fun n h' => by
      show stepCnt (xblk m c ⟨n + 1, h'⟩) (rows m c n _).1 (ix2 (0 : Fin 1) l) = _
      rw [stepCnt_lane]) h

/-- Lane `l` of the final label-sum row. -/
theorem lab_final (c : Dev nD) (h : 31 < cfg0.N) (l : Fin 128) :
    (rows m c 31 h).2.1 (ix2 (0 : Fin 1) l)
      = ∑ t : Fin cfg0.N, tileSum (binsOf (xblk m c t)) (labOf (yblk m c t)) l :=
  running_sum_last (fun t => tileSum (binsOf (xblk m c t)) (labOf (yblk m c t)) l)
    (fun n hn => (rows m c n hn).2.1 (ix2 (0 : Fin 1) l))
    (fun h' => by
      show stepLab (xblk m c ⟨0, h'⟩) (yblk m c ⟨0, h'⟩) zeroRow (ix2 (0 : Fin 1) l) = _
      rw [stepLab_lane, zeroRow_lane, zero_add])
    (fun n h' => by
      show stepLab (xblk m c ⟨n + 1, h'⟩) (yblk m c ⟨n + 1, h'⟩) (rows m c n _).2.1 (ix2 (0 : Fin 1) l) = _
      rw [stepLab_lane]) h

/-- Lane `l` of the final confidence-sum row. -/
theorem cnf_final (c : Dev nD) (h : 31 < cfg0.N) (l : Fin 128) :
    (rows m c 31 h).2.2 (ix2 (0 : Fin 1) l)
      = ∑ t : Fin cfg0.N, tileSum (binsOf (xblk m c t)) (confOf (xblk m c t)) l :=
  running_sum_last (fun t => tileSum (binsOf (xblk m c t)) (confOf (xblk m c t)) l)
    (fun n hn => (rows m c n hn).2.2 (ix2 (0 : Fin 1) l))
    (fun h' => by
      show stepCnf (xblk m c ⟨0, h'⟩) zeroRow (ix2 (0 : Fin 1) l) = _
      rw [stepCnf_lane, zeroRow_lane, zero_add])
    (fun n h' => by
      show stepCnf (xblk m c ⟨n + 1, h'⟩) (rows m c n _).2.2 (ix2 (0 : Fin 1) l) = _
      rw [stepCnf_lane]) h

end Cert.KernelIdeal.Hist

end
-- ==== Proof.Reindex.lean ====
/-
  The flat arrays of 33554432 entries, cut into the kernel's tiles. The host reshapes each argument to 262144 x 128
  in row-major order, and grid point `t` reads rows `8192 t` to `8192 t + 8191`; so entry `(r, q)` of the tile at
  point `t` is entry `(8192 t + r) * 128 + q` of the flat argument, and a sum over the flat array is the sum over the
  32 points of the sums over their tiles.
-/
import proofs.«120145_j43946105373039_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Mathlib.Algebra.BigOperators.Fin
import Mathlib.Data.Fintype.BigOperators
import Mathlib.Logic.Equiv.Fin.Basic
import Mathlib.Tactic.Ring
import Mathlib.Tactic.NormNum

set_option maxRecDepth 16384

noncomputable section

open Idealize.ShloMosaic Idealize.ShloMosaic.TcCoe Idealize.SL.Sem

namespace Cert.KernelIdeal.Hist

open Cert.KernelIdeal Cert.KernelIdeal.Gen Idealize.ShloMosaic.ValueIdx

/-- The flat position of entry `(r, q)` of the tile at point `t`. -/
def flat (t : Fin 32) (r : Fin 8192) (q : Fin 128) : Fin 33554432 :=
  ⟨(t.val * 8192 + r.val) * 128 + q.val, by have := t.isLt; have := r.isLt; have := q.isLt; omega⟩

/-- A sum over `a * b` positions is the double sum over the pairs `(x, y)`, position `x * b + y`: every position is
    `x * b + y` for exactly one pair with `x < a` and `y < b`. -/
theorem sum_fin_split {M : Type*} [AddCommMonoid M] {a b N : ℕ} (h : a * b = N) (f : Fin N → M) :
    ∑ j : Fin N, f j = ∑ x : Fin a, ∑ y : Fin b,
      f ⟨x.val * b + y.val, by
        have hx := x.isLt; have hy := y.isLt
        calc x.val * b + y.val < x.val * b + b := by omega
          _ = (x.val + 1) * b := by ring
          _ ≤ a * b := Nat.mul_le_mul_right b hx
          _ = N := h⟩ := by
  subst h
  rw [← (finProdFinEquiv (m := a) (n := b)).sum_comp, Fintype.sum_prod_type]
  refine Finset.sum_congr rfl fun x _ => Finset.sum_congr rfl fun y _ => ?_
  congr 1
  apply Fin.ext
  simp only [finProdFinEquiv_apply_val]
  ring

/-- A sum over the flat array is the sum over the points of the sums over their tiles. -/
theorem sum_flat {M : Type*} [AddCommMonoid M] (g : Fin 33554432 → M) :
    ∑ j : Fin 33554432, g j = ∑ t : Fin 32, ∑ r : Fin 8192, ∑ q : Fin 128, g (flat t r q) := by
  -- first the 262144 rows of 128 entries, then the rows as 32 groups of 8192
  rw [sum_fin_split (a := 262144) (b := 128) (by norm_num) g,
    sum_fin_split (a := 32) (b := 8192) (N := 262144) (by norm_num)]
  rfl

/-- The row-major reshape of a flat array to 262144 x 128, read at `(a, b)`, is the flat array at `128 a + b`. -/
theorem reshape_at {α : Type} (x : S33554432.Idx → α) (a : Fin 262144) (b : Fin 128) :
    shapeCast S262144x128 x shapeCasts_S33554432_S262144x128 (ix2 a b)
      = x (ix1 ⟨a.val * 128 + b.val, by have := a.isLt; have := b.isLt; omega⟩) := by
  refine shapeCast_apply x _ _ _ ?_
  rw [Shape.rowMajor_val_one, Shape.rowMajor_val_two]
  rfl

/-- Point `t`'s logit tile is block `(t, 0)` of the reshaped array. -/
theorem idx0 : ∀ t : Fin grid0.N, win0_0.index t 0 = t.val ∧ win0_0.index t 1 = 0 := by decide +kernel
/-- Point `t`'s label tile is block `(t, 0)` of the reshaped array. -/
theorem idx1 : ∀ t : Fin grid0.N, win0_1.index t 0 = t.val ∧ win0_1.index t 1 = 0 := by decide +kernel

variable {F : FTy → Type} [FloatOps F]
variable (m : (ℓ : Loc nD τ sig) → Buf (Elt F) ℓ)

/-- When the region is entered the first window's array holds the row-major reshape of the logit argument. -/
theorem V_v0 (c : Dev nD) :
    (V m c main_v0 : S262144x128.Idx → Elt F .f32)
      = shapeCast S262144x128 (m ((c.tc : Thread nD τ).loc main_arg0)) shapeCasts_S33554432_S262144x128 := by
  show StableHlo.after hostOps0 (fun b => m (c, b)) (Proc.devRef .tc main_v0) = _
  after_results
  rfl

/-- When the region is entered the second window's array holds the row-major reshape of the label argument. -/
theorem V_v1 (c : Dev nD) :
    (V m c main_v1 : S262144x128.Idx → Elt F .i32)
      = shapeCast S262144x128 (m ((c.tc : Thread nD τ).loc main_arg1)) shapeCasts_S33554432_S262144x128 := by
  show StableHlo.after hostOps0 (fun b => m (c, b)) (Proc.devRef .tc main_v1) = _
  after_results
  rfl

/-- Entry `(r, q)` of the logit tile at point `t` is entry `(8192 t + r, q)` of the reshaped array: along each axis a
    block's coordinate is the block index times the block's extent plus the coordinate inside the block. -/
theorem xblk_V (c : Dev nD) (t : Fin cfg0.N) (r : Fin 8192) (q : Fin 128) :
    (iblk m c 0 t : Vec F S8192x128 .f32) (ix2 r q)
      = V m c main_v0 (ix2 ⟨t.val * 8192 + r.val, by
          have := lt_of_lt_of_eq t.isLt N_0; have := r.isLt; omega⟩ q) := by
  have hi := idx0 t
  unfold iblk
  rw [View.read_apply]
  show V m c main_v0 (((cfg0.win 0).blk t).view.emb (ix2 r q)) = _
  congr 1
  funext a
  apply Fin.ext
  match a with
  | ⟨0, _⟩ => show win0_0.index t 0 * 8192 + 1 * r.val = t.val * 8192 + r.val; rw [hi.1]; omega
  | ⟨1, _⟩ => show win0_0.index t 1 * 128 + 1 * q.val = q.val; rw [hi.2]; omega

/-- The same for the label tile. -/
theorem yblk_V (c : Dev nD) (t : Fin cfg0.N) (r : Fin 8192) (q : Fin 128) :
    (iblk m c 1 t : Vec F S8192x128 .i32) (ix2 r q)
      = V m c main_v1 (ix2 ⟨t.val * 8192 + r.val, by
          have := lt_of_lt_of_eq t.isLt N_0; have := r.isLt; omega⟩ q) := by
  have hi := idx1 t
  unfold iblk
  rw [View.read_apply]
  show V m c main_v1 (((cfg0.win 1).blk t).view.emb (ix2 r q)) = _
  congr 1
  funext a
  apply Fin.ext
  match a with
  | ⟨0, _⟩ => show win0_1.index t 0 * 8192 + 1 * r.val = t.val * 8192 + r.val; rw [hi.1]; omega
  | ⟨1, _⟩ => show win0_1.index t 1 * 128 + 1 * q.val = q.val; rw [hi.2]; omega

/-- Entry `(r, q)` of the logit tile at point `t` is the flat logit array at the tile's flat position. -/
theorem xblk_apply (c : Dev nD) (t : Fin cfg0.N) (r : Fin 8192) (q : Fin 128) :
    (iblk m c 0 t : Vec F S8192x128 .f32) (ix2 r q)
      = m ((c.tc : Thread nD τ).loc main_arg0) (ix1 (flat ⟨t.val, lt_of_lt_of_eq t.isLt N_0⟩ r q)) := by
  -- the tile entry in the reshaped array, the reshaped array in the flat one: (8192 t + r) * 128 + q
  rw [xblk_V, V_v0, reshape_at]
  rfl

/-- Entry `(r, q)` of the label tile at point `t` is the flat label array at the tile's flat position. -/
theorem yblk_apply (c : Dev nD) (t : Fin cfg0.N) (r : Fin 8192) (q : Fin 128) :
    (iblk m c 1 t : Vec F S8192x128 .i32) (ix2 r q)
      = m ((c.tc : Thread nD τ).loc main_arg1) (ix1 (flat ⟨t.val, lt_of_lt_of_eq t.isLt N_0⟩ r q)) := by
  rw [yblk_V, V_v1, reshape_at]
  rfl

end Cert.KernelIdeal.Hist

end
-- ==== Proof.Pointwise.lean ====
/-
  Entry by entry the kernel and the reference compute the same three things from a logit `x` and a label `y`:
  the confidence `1 / (1 + e^(-x))` (the kernel's one logistic operation is that expression over the extended reals),
  the bin index `min 9 (max 0 (ceil (10 * confidence) - 1))` (the same operations in the same order on both sides),
  and the label as a float.
-/
import proofs.«120145_j43946105373039_1_alg».proof.Proof.Step
import proofs.«120145_j43946105373039_1_alg».proof.Proof.RefRun
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.Hist

open Idealize.ShloMosaic.ValueIdx

/-- The bit pattern of the float one is the extended real one. -/
private theorem one_f32 : FloatOps.ofBits (F := Ideal) .f32 0x3F800000#32 = (1 : EReal) :=
  IdealRules.sign_bit.ideal_onePat .f32

/-- The kernel's confidence of an entry is the logistic function of that entry: a cast to the same shape reads the
same entry, and the logistic operation acts entry by entry. -/
theorem conf_k (x0 : Vec Ideal Cert.KernelIdeal.S8192x128 .f32) (y : Cert.KernelIdeal.S8192x128.Idx) :
    Cert.KernelIdeal.Hist.confOf x0 y = Ideal.logistic (x0 y) := by
  unfold Cert.KernelIdeal.Hist.confOf Cert.KernelIdeal.Gen.k0_pay15
  simp only [shapeCast_self]
  rfl

/-- The kernel's bin index of an entry, from its confidence `c`: `min 9 (max 0 (ceil (c * 10) - 1))`, every
operation acting entry by entry and every constant being the same at every entry. -/
theorem bins_k (x0 : Vec Ideal Cert.KernelIdeal.S8192x128 .f32) (y : Cert.KernelIdeal.S8192x128.Idx) :
    Cert.KernelIdeal.Hist.binsOf x0 y
      = IntOp.minsi 9#32 (IntOp.maxsi 0#32 (IntOp.subi (FloatOps.fptosi 32 (FloatOps.ceil
          (FloatOps.mulf (Cert.KernelIdeal.Hist.confOf x0 y) (FloatOps.ofBits (F := Ideal) .f32 0x41200000#32)))) 1#32)) := by
  unfold Cert.KernelIdeal.Hist.binsOf Cert.KernelIdeal.Gen.k0_pay16
  rfl

/-- The kernel's confidence of an entry is the reference's confidence of the same logit. -/
theorem conf_pt (x0 : Vec Ideal Cert.KernelIdeal.S8192x128 .f32)
    (X : (⟨Cert.ReferenceIdeal.S33554432, .f32⟩ : BufTy).Contents (Elt Ideal))
    (y : Cert.KernelIdeal.S8192x128.Idx) (j : Cert.ReferenceIdeal.S33554432.Idx) (h : x0 y = X j) :
    Cert.KernelIdeal.Hist.confOf x0 y = Cert.ReferenceIdeal.Read.val_main_v5 (F := Ideal) X j := by
  open Cert.ReferenceIdeal.Read in
  -- the reference at `j` is `1 / (1 + exp (-(X j)))`, both ones being the broadcast pattern of the float one;
  -- over the extended reals that expression is the logistic function by definition
  rw [conf_k, val_main_v5_apply, val_main_v4_apply, val_main_cst_0_apply, val_main_v3_apply, val_main_v2_apply,
    val_main_cst_apply, val_main_v1_apply, val_main_v0_apply, ← h, one_f32]
  rfl

/-- The kernel's bin index of an entry is the reference's bin index of the same logit. -/
theorem bins_pt (x0 : Vec Ideal Cert.KernelIdeal.S8192x128 .f32)
    (X : (⟨Cert.ReferenceIdeal.S33554432, .f32⟩ : BufTy).Contents (Elt Ideal))
    (y : Cert.KernelIdeal.S8192x128.Idx) (j : Cert.ReferenceIdeal.S33554432.Idx) (h : x0 y = X j) :
    Cert.KernelIdeal.Hist.binsOf x0 y = Cert.ReferenceIdeal.Read.val_main_v12 (F := Ideal) X j := by
  open Cert.ReferenceIdeal.Read in
  -- the reference at `j` is `min 9 (max 0 (ceil (conf * 10) - 1))` with the same constants in the same places;
  -- the two sides' rounding up to an integer is one function over the extended reals
  rw [bins_k, conf_pt x0 X y j h, val_main_v12_apply, val_main_call0_v4_apply, val_main_call0_v3_apply, val_main_c_3_apply,
    val_main_call0_v2_apply, val_main_call0_v1_apply, val_main_call0_v0_apply, val_main_c_2_apply,
    val_main_v11_apply, val_main_v10_apply, val_main_c_apply, val_main_v9_apply, val_main_v8_apply,
    val_main_v7_apply, val_main_v6_apply, val_main_cst_1_apply]
  rfl

/-- The kernel's float label of an entry is the reference's float label of the same integer label. -/
theorem lab_pt (x1 : Vec Ideal Cert.KernelIdeal.S8192x128 .i32)
    (Y : (⟨Cert.ReferenceIdeal.S33554432, .i32⟩ : BufTy).Contents (Elt Ideal))
    (y : Cert.KernelIdeal.S8192x128.Idx) (j : Cert.ReferenceIdeal.S33554432.Idx) (h : x1 y = Y j) :
    Cert.KernelIdeal.Hist.labOf x1 y = Cert.ReferenceIdeal.Read.val_main_v17 (F := Ideal) Y j := by
  -- a cast to the same shape reads the same entry; the conversion to a float acts entry by entry on both sides
  unfold Cert.KernelIdeal.Hist.labOf Cert.KernelIdeal.Gen.k0_pay14
  simp only [shapeCast_self]
  rw [Cert.ReferenceIdeal.Read.val_main_v17_apply, ← h]
  rfl

end Cert.Hist

end
-- ==== Proof.RefSide.lean ====
/-
  The reference's three scatter-adds, read at a bin. Over the extended reals a scatter-add into a zero vector of ten
  is, at bin `l`, the sum of the updates whose scatter index lands on `l`. The scatter index of update `j` is the bin
  index of entry `j` read as a signed word; it lands on `l < 10` exactly when that word is `l`.
-/
import proofs.«120145_j43946105373039_1_alg».proof.Proof.RefRun
import Idealize.ShloMosaic.Lib.ValueIdx
import Idealize.ShloMosaic.Lib.ValueIdxRank1
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.ReferenceIdeal.Hist

open Cert.ReferenceIdeal Cert.ReferenceIdeal.Read Idealize.ShloMosaic.ValueIdx

/-- The scatter's dimension numbers: the operand's one axis is an inserted window axis, so an update has no window
    coordinate on it. -/
private theorem dS_window (j : S33554432.Idx) (a : Fin 1) :
    scatter_S10_S33554432x1_S33554432_n_0_0_1.window j a = 0 := by
  unfold ScatterDims.window
  have h : scatter_S10_S33554432x1_S33554432_n_0_0_1.sKept = [] := by decide
  rw [dif_neg (by rw [h]; exact List.not_mem_nil)]

/-- The start of update `j` on the operand's one axis is the signed word at position `(j, 0)` of the scatter indices. -/
private theorem dS_start (j : S33554432.Idx) (idx : IVec S33554432x1 32) (a : Fin 1) :
    scatter_S10_S33554432x1_S33554432_n_0_0_1.start j idx a = (idx (ix2 (j 0) 0)).toInt := by
  obtain rfl : a = 0 := Subsingleton.elim _ _
  unfold ScatterDims.start
  rw [dif_pos (by decide)]
  congr 2
  funext b
  match b with
  | ⟨0, _⟩ =>
    unfold ScatterDims.siIdx
    rw [dif_neg (by show ¬ ((0 : Nat) = 1); decide)]
    unfold ScatterDims.siCoord
    apply Fin.ext
    show (j _).val = (j 0).val
    exact congrArg (fun t => (j t).val) (Subsingleton.elim _ _)
  | ⟨1, _⟩ =>
    unfold ScatterDims.siIdx
    rw [dif_pos (by show (1 : Nat) = 1; rfl)]
    apply Fin.ext
    show List.idxOf (0 : Fin 1) [0] = 0
    decide

/-- The scatter's result index: update `j` lands on bin `i` exactly when the signed word at position `(j, 0)` of the
    scatter indices is `i`'s coordinate (no window coordinate, no clamp; a word outside `0 … 9` lands nowhere). -/
private theorem dS_resultIdx_iff (j : S33554432.Idx) (idx : IVec S33554432x1 32) (i : S10.Idx) :
    scatter_S10_S33554432x1_S33554432_n_0_0_1.resultIdx? j idx = some i
      ↔ (idx (ix2 (j 0) 0)).toInt = ((i 0).val : Int) := by
  have hi : (i 0).val < 10 := (i 0).isLt
  unfold ScatterDims.resultIdx?
  simp only [dS_start, dS_window]
  constructor
  · intro h
    split at h
    · rename_i hc
      have h0 : Int.toNat _ = (i 0).val := congrArg (fun f => (f 0).val) (Option.some.inj h)
      have hc0 : (0 : Int) ≤ _ ∧ _ < ((10 : Nat) : Int) := hc 0
      omega
    · cases h
  · intro h
    rw [dif_pos (by
      intro a
      obtain rfl : a = 0 := Subsingleton.elim _ _
      rw [h]
      show (0 : Int) ≤ ((i 0).val : Int) + ((0 : Nat) : Int) ∧ ((i 0).val : Int) + ((0 : Nat) : Int) < ((10 : Nat) : Int)
      omega)]
    congr 1
    funext a
    obtain rfl : a = 0 := Subsingleton.elim _ _
    apply Fin.ext
    show Int.toNat _ = (i 0).val
    rw [h]
    omega

/-- A 32-bit word read signed is a natural below ten exactly when it is that natural's word. -/
private theorem toInt_eq_small (w : BitVec 32) (l : Nat) (hl : l < 10) : w.toInt = (l : Int) ↔ w = BitVec.ofNat 32 l := by
  have h : (BitVec.ofNat 32 l).toInt = (l : Int) := by interval_cases l <;> rfl
  constructor
  · intro hw; exact BitVec.eq_of_toInt_eq (hw.trans h.symm)
  · intro hw; rw [hw, h]

/-- The scatter-add read at bin `l`, for any operand, scatter indices and updates: the operand's element plus the sum of
    the updates whose scatter index is the word `l`. The sum over the updates' rank-1 indices is carried to the sum over
    their one coordinate. -/
private theorem scatter_read (x : FVec Ideal S10 .f32) (idx : IVec S33554432x1 32) (upd : FVec Ideal S33554432 .f32) (l : Fin 10) :
    Host.scatterAdd (F := Ideal) scatter_S10_S33554432x1_S33554432_n_0_0_1 x idx upd (ix1 l)
      = x (ix1 l) + ∑ j : Fin 33554432, (if idx (ix2 j 0) = BitVec.ofNat 32 l.val then upd (ix1 j) else 0) := by
  unfold Host.scatterAdd
  rw [Ideal.hostScatterAdd_def]
  unfold Ideal.hostScatterAdd
  rw [Finset.sum_filter]
  simp only [dS_resultIdx_iff]
  refine congrArg (fun t => x (ix1 l) + t) ?_
  refine (Equiv.sum_comp (idxEquiv1 (n := 33554432)).symm _).symm.trans ?_
  refine Finset.sum_congr rfl fun j _ => ?_
  show (if (idx (ix2 j 0)).toInt = ((l.val : Nat) : Int) then upd (ix1 j) else 0) = _
  simp only [toInt_eq_small _ _ l.isLt]

/-- The word `0x3F800000` is the float one. -/
private theorem one_f32 : Ideal.ofBits .f32 0x3F800000#32 = 1 := IdealRules.sign_bit.ideal_onePat .f32

variable (x0 : (⟨S33554432, .f32⟩ : BufTy).Contents (Elt Ideal)) (x1 : (⟨S33554432, .i32⟩ : BufTy).Contents (Elt Ideal))

/-- The reference's count of bin `l`: the number of entries whose bin index is `l`. -/
theorem ref_cnt_apply (l : Fin 10) :
    val_main_v16 (F := Ideal) x0 (ix1 l)
      = ∑ j : Fin 33554432, (if val_main_v12 (F := Ideal) x0 (ix1 j) = BitVec.ofNat 32 l.val then (1 : EReal) else 0) := by
  unfold val_main_v16
  rw [scatter_read, val_main_v14_apply, val_main_cst_5_apply, Ideal.ofBits_def, Ideal.ofBits_zero_f32, zero_add]
  refine Finset.sum_congr rfl fun j _ => ?_
  have hidx : idx_main_v15 (ix2 j 0) = ix1 j := by funext a; match a with | ⟨0, _⟩ => rfl
  rw [val_main_v15_apply, hidx, val_main_v13_apply, val_main_cst_4_apply, Ideal.ofBits_def, one_f32]

/-- The reference's label sum of bin `l`: the labels of the entries whose bin index is `l`, summed. -/
theorem ref_lab_apply (l : Fin 10) :
    val_main_v20 (F := Ideal) x0 x1 (ix1 l)
      = ∑ j : Fin 33554432, (if val_main_v12 (F := Ideal) x0 (ix1 j) = BitVec.ofNat 32 l.val then val_main_v17 (F := Ideal) x1 (ix1 j) else 0) := by
  unfold val_main_v20
  rw [scatter_read, val_main_v18_apply, val_main_cst_6_apply, Ideal.ofBits_def, Ideal.ofBits_zero_f32, zero_add]
  refine Finset.sum_congr rfl fun j _ => ?_
  have hidx : idx_main_v19 (ix2 j 0) = ix1 j := by funext a; match a with | ⟨0, _⟩ => rfl
  rw [val_main_v19_apply, hidx]

/-- The reference's confidence sum of bin `l`: the confidences of the entries whose bin index is `l`, summed. -/
theorem ref_cnf_apply (l : Fin 10) :
    val_main_v23 (F := Ideal) x0 (ix1 l)
      = ∑ j : Fin 33554432, (if val_main_v12 (F := Ideal) x0 (ix1 j) = BitVec.ofNat 32 l.val then val_main_v5 (F := Ideal) x0 (ix1 j) else 0) := by
  unfold val_main_v23
  rw [scatter_read, val_main_v21_apply, val_main_cst_7_apply, Ideal.ofBits_def, Ideal.ofBits_zero_f32, zero_add]
  refine Finset.sum_congr rfl fun j _ => ?_
  have hidx : idx_main_v22 (ix2 j 0) = ix1 j := by funext a; match a with | ⟨0, _⟩ => rfl
  rw [val_main_v22_apply, hidx]

end Cert.ReferenceIdeal.Hist

end
-- ==== Proof.Tails.lean ====
/-
  The last step on both sides, from the three per-bin sums to the four results. Given that lanes 0 to 9 of the
  kernel's three final rows hold the reference's three per-bin sums, and that the kernel's count row is zero in lanes
  10 to 127:
  * the positive rate and the mean confidence agree bin by bin (the same select / divide / select on both sides);
  * the masked absolute difference `e` is zero in lanes 10 to 127 (a zero count is not positive), so its sum over the
    128 lanes is its sum over the ten bins;
  * `e` is nowhere negative (an absolute value, or zero), so the extra zero lanes do not change its maximum.
-/
import proofs.«120145_j43946105373039_1_alg».proof.Proof.Step
import proofs.«120145_j43946105373039_1_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.Hist

open Idealize.ShloMosaic.ValueIdx Cert.ReferenceIdeal.Read

/-- Lane `l < 10` of a 128-lane row. -/
abbrev lane10 (l : Fin 10) : Fin 128 := Fin.castLE (by decide : 10 ≤ 128) l

variable (x0 : (⟨Cert.ReferenceIdeal.S33554432, .f32⟩ : BufTy).Contents (Elt Ideal))
  (x1 : (⟨Cert.ReferenceIdeal.S33554432, .i32⟩ : BufTy).Contents (Elt Ideal))
  (cnt ls cs : Vec Ideal Cert.KernelIdeal.S1x128 .f32)
  (hcnt : ∀ l : Fin 10, cnt (ix2 (0 : Fin 1) (lane10 l)) = val_main_v16 (F := Ideal) x0 (ix1 l))
  (hls : ∀ l : Fin 10, ls (ix2 (0 : Fin 1) (lane10 l)) = val_main_v20 (F := Ideal) x0 x1 (ix1 l))
  (hcs : ∀ l : Fin 10, cs (ix2 (0 : Fin 1) (lane10 l)) = val_main_v23 (F := Ideal) x0 (ix1 l))
  (hhi : ∀ l : Fin 128, 10 ≤ l.val → cnt (ix2 (0 : Fin 1) l) = 0)

/-! ## Facts about lanes, free of the kernel -/

/-- A sum over `n` lanes of a function that vanishes from lane `m` on is its sum over the first `m` lanes. -/
theorem sum_castLE {M : Type*} [AddCommMonoid M] {m n : ℕ} (h : m ≤ n) (f : Fin n → M)
    (hf : ∀ l : Fin n, m ≤ l.val → f l = 0) : ∑ l : Fin n, f l = ∑ l : Fin m, f (Fin.castLE h l) := by
  refine (Fintype.sum_of_injective (Fin.castLE h) (Fin.castLE_injective h) _ f ?_ fun _ => rfl).symm
  intro l hl
  exact hf l (Nat.le_of_not_lt fun hlt => hl ⟨⟨l.val, hlt⟩, Fin.ext rfl⟩)

/-- A maximum over `n` lanes against a maximum over any finite index set `ι` sitting in the lanes by `e`: if every lane
    below `m` is an index's, the lanes from `m` on all hold one value `z`, and `z` is below every lane's value, the two
    maxima (from the same start `b`) agree. There is an index `i0`, so `z` is below a value the second maximum sees. -/
theorem fold_max_eq_of_tail {α ι : Type*} [LinearOrder α] [Fintype ι] {n : ℕ} (m : ℕ) (b z : α) (f : Fin n → α) (y : ι → α)
    (e : ι → Fin n) (i0 : ι) (he : ∀ l : Fin n, l.val < m → ∃ i, e i = l) (hy : ∀ i, f (e i) = y i)
    (hz : ∀ l : Fin n, m ≤ l.val → f l = z) (hnn : ∀ l : Fin n, z ≤ f l) :
    (Finset.univ : Finset (Fin n)).fold max b f = (Finset.univ : Finset ι).fold max b y := by
  apply le_antisymm
  · rw [Finset.fold_max_le]
    refine ⟨(Finset.le_fold_max _).2 (Or.inl le_rfl), fun x _ => ?_⟩
    rw [Finset.le_fold_max]
    right
    by_cases hx : x.val < m
    · obtain ⟨i, rfl⟩ := he x hx
      exact ⟨i, Finset.mem_univ _, le_of_eq (hy i)⟩
    · refine ⟨i0, Finset.mem_univ _, ?_⟩
      rw [← hy i0, hz x (Nat.le_of_not_lt hx)]
      exact hnn _
  · rw [Finset.fold_max_le]
    refine ⟨(Finset.le_fold_max _).2 (Or.inl le_rfl), fun i _ => ?_⟩
    exact (Finset.le_fold_max _).2 (Or.inr ⟨e i, Finset.mem_univ _, le_of_eq (hy i).symm⟩)

/-- The one reduced index of a `[1, 128]` row with lane `k` put back is `(0, k)`. -/
theorem lift_row (h : (⟨2, ![1, 128]⟩ : Shape).Reduces [1] (⟨1, ![1]⟩ : Shape)) (k : Fin 128) :
    h.lift (ix1 (0 : Fin 1)) k = ix2 (0 : Fin 1) k := by
  funext c; apply Fin.ext
  fin_cases c <;> rfl

/-- A ten-entry array's indices are its ten coordinates. -/
def binEquiv : Fin 10 ≃ (⟨1, ![10]⟩ : Shape).Idx := ⟨ix1, fun j => j 0, fun _ => rfl, fun j => (eq_ix1 j).symm⟩

/-- The pattern of minus infinity is the least extended real. -/
theorem ofBits_neg_inf : Ideal.ofBits .f32 0xFF800000#32 = ⊥ := by simp [Ideal.ofBits, Ideal.ieee]

/-- An absolute value, read on the extended reals as `max a (-a)`, is not negative. -/
theorem zero_le_max_neg (a : EReal) : 0 ≤ max a (-a) := by
  rcases le_total 0 a with h | h
  · exact le_max_of_le_left h
  · exact le_max_of_le_right (EReal.neg_nonneg.2 h)

/-- Zero is not above zero. -/
theorem cmp_ogt_zero_zero : Ideal.cmp .ogt (0 : EReal) 0 = 0#1 := by simp [Ideal.cmp]

/-- The host's maximum over a ten-entry array into a scalar, from a start that is the least element: the maximum over
    every index of the array (every index drops to the scalar's one index). -/
theorem hostMax_bins (y : (⟨1, ![10]⟩ : Shape).Idx → Ideal .f32) (init : (⟨0, ![]⟩ : Shape).Idx → Ideal .f32)
    (h : (⟨1, ![10]⟩ : Shape).ReducesTo [0] (⟨0, ![]⟩ : Shape)) (hu : 0 < (⟨0, ![]⟩ : Shape).numel)
    (hi : init (Shape.Idx.first hu) = ⊥) :
    Host.reduce FloatOps.maximumf y init h hu ix0
      = (Finset.univ : Finset (⟨1, ![10]⟩ : Shape).Idx).fold max (⊥ : EReal) y := by
  rw [Host.reduce_eq_fold, Finset.filter_true_of_mem (fun i _ => funext fun a => a.elim0), hi]
  rfl

/-! ## The four results -/

include hcnt hls in
/-- The positive rate of bin `l`. -/
theorem pos_eq (l : Fin 10) :
    Cert.KernelIdeal.Gen.k0_pay6 cnt ls (ix2 (0 : Fin 1) (lane10 l)) = val_main_v28 (F := Ideal) x0 x1 (ix1 l) := by
  rw [val_main_v28_apply, val_main_v27_apply, val_main_v26_apply, val_main_v25_apply, val_main_v24_apply,
    val_main_cst_8_apply, val_main_call2_v1_apply, val_main_call2_v0_apply, val_main_cst_10_apply,
    val_main_call1_v1_apply, val_main_call1_v0_apply, val_main_cst_9_apply, ← hcnt l, ← hls l]
  rfl

include hcnt hcs in
/-- The mean confidence of bin `l`. -/
theorem cnf_eq (l : Fin 10) :
    Cert.KernelIdeal.Gen.k0_pay7 cnt cs (ix2 (0 : Fin 1) (lane10 l)) = val_main_v30 (F := Ideal) x0 (ix1 l) := by
  rw [val_main_v30_apply, val_main_v29_apply, val_main_v26_apply, val_main_v25_apply, val_main_v24_apply,
    val_main_cst_8_apply, val_main_call3_v1_apply, val_main_call3_v0_apply, val_main_cst_11_apply,
    val_main_call1_v1_apply, val_main_call1_v0_apply, val_main_cst_9_apply, ← hcnt l, ← hcs l]
  rfl

include hcnt hls hcs in
/-- The masked absolute difference of bin `l`. -/
theorem err_eq (l : Fin 10) :
    Cert.KernelIdeal.Gen.k0_pay8 cnt ls cs (ix2 (0 : Fin 1) (lane10 l)) = val_main_v33 (F := Ideal) x0 x1 (ix1 l) := by
  have hp := pos_eq x0 x1 cnt ls hcnt hls l
  have hc := cnf_eq x0 cnt cs hcnt hcs l
  rw [val_main_v33_apply, val_main_v32_apply, val_main_v31_apply, val_main_v25_apply, val_main_v24_apply,
    val_main_cst_8_apply, val_main_call4_v1_apply, val_main_call4_v0_apply, val_main_cst_12_apply, ← hp, ← hc, ← hcnt l]
  rfl

include hhi in
/-- From lane 10 on the count is zero, which is not positive, so the masked difference is the zero it selects. -/
theorem err_hi (l : Fin 128) (h : 10 ≤ l.val) : Cert.KernelIdeal.Gen.k0_pay8 cnt ls cs (ix2 (0 : Fin 1) l) = 0 := by
  show Scalar.select (FloatOps.cmpf .ogt (cnt (ix2 (0 : Fin 1) l)) (Ideal.ofBits .f32 0x00000000#32)) _ (Ideal.ofBits .f32 0x00000000#32) = 0
  rw [hhi l h, Ideal.ofBits_zero_f32, Ideal.cmpf_def, cmp_ogt_zero_zero, select_zero]

/-- The masked difference is an absolute value or zero: nowhere negative. -/
theorem err_nonneg (j : Cert.KernelIdeal.S1x128.Idx) : 0 ≤ Cert.KernelIdeal.Gen.k0_pay8 cnt ls cs j := by
  show 0 ≤ Scalar.select (FloatOps.cmpf .ogt (cnt j) (Ideal.ofBits .f32 0x00000000#32)) (max _ (- _)) (Ideal.ofBits .f32 0x00000000#32)
  unfold Scalar.select
  split
  · exact zero_le_max_neg _
  · rw [Ideal.ofBits_zero_f32]

include hcnt hls hcs hhi in
/-- The calibration error: the sum of the masked absolute differences. -/
theorem ece_eq :
    Cert.KernelIdeal.Gen.k0_pay9 cnt ls cs (ix2 (0 : Fin 1) (0 : Fin 1)) = val_main_v34 (F := Ideal) x0 x1 ix0 := by
  -- the kernel's side: the [1] → [1, 1] cast read at (0, 0), then the sum over the 128 lanes
  have hK : Cert.KernelIdeal.Gen.k0_pay9 cnt ls cs (ix2 (0 : Fin 1) (0 : Fin 1))
      = ∑ k : Fin 128, Cert.KernelIdeal.Gen.k0_pay8 cnt ls cs (ix2 (0 : Fin 1) k) := by
    refine (shapeCast_a_1a_apply (multiReduction (F := Ideal) .add [1] Cert.KernelIdeal.S1
      (Cert.KernelIdeal.Gen.k0_pay8 cnt ls cs) 0x00000000#32 Cert.KernelIdeal.Gen.reduces_S1x128_S1 (.inl rfl) rfl)
      Cert.KernelIdeal.Gen.shapeCasts_S1_S1x1 0 0).trans ?_
    refine (Ideal.multiReduction_add_single _ _ _ _ _ _).trans ?_
    exact Finset.sum_congr rfl fun k _ => congrArg _ (lift_row _ k)
  -- the reference's side: zero plus the sum over the ten bins; the kernel's lanes from 10 on add nothing
  rw [hK, val_main_v34_apply, val_main_cst_13_apply,
    show (FloatOps.ofBits .f32 0x00000000#32 : Ideal .f32) = 0 from Ideal.ofBits_zero_f32, zero_add,
    sum_castLE (by decide : 10 ≤ 128) _ (fun l h => err_hi cnt ls cs hhi l h)]
  exact Fintype.sum_equiv binEquiv _ _ (fun l => err_eq x0 x1 cnt ls cs hcnt hls hcs l)

include hcnt hls hcs hhi in
/-- The maximum calibration error: the maximum of the masked absolute differences. -/
theorem max_eq :
    Cert.KernelIdeal.Gen.k0_pay10 cnt ls cs (ix2 (0 : Fin 1) (0 : Fin 1)) = val_main_v35 (F := Ideal) x0 x1 ix0 := by
  -- the kernel's side: the maximum over the 128 lanes, from the least element
  have hK : Cert.KernelIdeal.Gen.k0_pay10 cnt ls cs (ix2 (0 : Fin 1) (0 : Fin 1))
      = (Finset.univ : Finset (Fin 128)).fold max (⊥ : EReal) (fun k => Cert.KernelIdeal.Gen.k0_pay8 cnt ls cs (ix2 (0 : Fin 1) k)) := by
    refine (shapeCast_a_1a_apply (multiReduction (F := Ideal) .maximumf [1] Cert.KernelIdeal.S1
      (Cert.KernelIdeal.Gen.k0_pay8 cnt ls cs) 0xFF800000#32 Cert.KernelIdeal.Gen.reduces_S1x128_S1 (.inl rfl) rfl)
      Cert.KernelIdeal.Gen.shapeCasts_S1_S1x1 0 0).trans ?_
    refine (Ideal.multiReduction_maximumf_single _ _ _ _ _ _).trans ?_
    rw [show (FloatOps.ofBits .f32 0xFF800000#32 : Ideal .f32) = ⊥ from ofBits_neg_inf]
    exact congrArg (fun f => Finset.fold max (⊥ : EReal) f Finset.univ) (funext fun k => congrArg _ (lift_row _ k))
  -- the reference's side: the maximum over the ten bins, from the least element
  have hR : val_main_v35 (F := Ideal) x0 x1 ix0
      = (Finset.univ : Finset (⟨1, ![10]⟩ : Shape).Idx).fold max (⊥ : EReal) (val_main_v33 (F := Ideal) x0 x1) := by
    unfold val_main_v35
    exact hostMax_bins (val_main_v33 (F := Ideal) x0 x1) (val_main_cst_14 (F := Ideal)) _ _ ofBits_neg_inf
  -- lanes 0 to 9 are the bins; the lanes from 10 on hold zero, which no lane is below
  rw [hK, hR]
  exact fold_max_eq_of_tail 10 ⊥ 0 _ _ (fun j => lane10 (j 0)) (ix1 0)
    (fun l hl => ⟨ix1 ⟨l.val, hl⟩, Fin.ext rfl⟩)
    (fun j => (err_eq x0 x1 cnt ls cs hcnt hls hcs (j 0)).trans (congrArg (val_main_v33 (F := Ideal) x0 x1) (eq_ix1 j).symm))
    (fun l h => err_hi cnt ls cs hhi l h) (fun l => err_nonneg cnt ls cs _)

end Cert.Hist

end
-- ==== Proof.Arrays.lean ====
/-
  The four results of the kernel program, read off its run. Each of the four output windows is written back once,
  after the last grid point, and its one block is its whole array; so after the region each output array holds what
  the last point left in its staging buffer. The host lines after the region then cut lanes 0 to 9 out of the two
  1 x 128 rows and drop the unit axes of the two 1 x 1 results.
-/
import proofs.«120145_j43946105373039_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hist

open Cert.KernelIdeal Cert.KernelIdeal.Gen Idealize.ShloMosaic.ValueIdx

variable {F : FTy → Type} [FloatOps F]
variable (m : (ℓ : Loc nD τ sig) → Buf (Elt F) ℓ) (ρ : Dev nD → PrngReg)

/-- The last of the 32 grid points. -/
theorem h31 : 31 < cfg0.N := by rw [show cfg0.N = 32 from N_0]; decide

/-- The host tail of a 1 x 128 result row: lanes 0 to 9, as a vector of ten. -/
def rowOut (a : Vec F S1x128 .f32) : Vec F S10 .f32 :=
  shapeCast S10 (extractStridedSlice S1x10 ![0, 0] a slices_S1x128_S1x10_0_0) shapeCasts_S1x10_S10

/-- The host tail of a 1 x 1 result: its one entry, as a scalar. -/
def scalOut (a : Vec F S1x1 .f32) : Vec F S_ .f32 := shapeCast S_ a shapeCasts_S1x1_S_

/-- Entry `l` of the ten is lane `l` of the row. -/
theorem rowOut_apply (a : Vec F S1x128 .f32) (l : Fin 10) :
    rowOut a (ix1 l) = a (ix2 (0 : Fin 1) (Fin.castLE (by decide : 10 ≤ 128) l)) := by
  unfold rowOut
  -- dropping the unit axis reads entry l at (0, l); the cut starts at lane 0, so that is lane l of the row
  rw [shapeCast_1a_a_apply]
  exact slice2_axis1_apply 0 a slices_S1x128_S1x10_0_0 (0 : Fin 1) l (Fin.castLE (by decide : 10 ≤ 128) l) (by simp)

/-- The scalar is the row's one entry. -/
theorem scalOut_apply (a : Vec F S1x1 .f32) : scalOut a ix0 = a (ix2 (0 : Fin 1) (0 : Fin 1)) := by
  unfold scalOut
  -- both shapes have one entry, so the two row-major positions are both 0
  refine shapeCast_apply a shapeCasts_S1x1_S_ ix0 (ix2 (0 : Fin 1) (0 : Fin 1)) ?_
  rw [Shape.rowMajor_val_two]
  have h : (S_.rowMajor ix0).val < 1 := (S_.rowMajor ix0).isLt
  show 0 * 1 + 0 = _
  omega

/-! ## The output arrays after the region

Each of the four outputs has one block, the whole array, at block index (0, 0) whatever the grid point, and is written
back at the last point only. So the array after the region is what the last point left in the output's staging buffer. -/

/-- A grid point at position 31 is the last one: what the kernel left there is what it left at position 31. -/
theorem outs_at (c : Dev nD) (t : Fin cfg0.N) (ht : t.val = 31) : outsAt0 m c t.val t.isLt = outsAt0 m c 31 h31 := by
  obtain ⟨n, hn⟩ := t
  obtain rfl : n = 31 := ht
  rfl

/-- A point that writes an output back sits at position 31: the grid has 32 points. -/
theorem val_of_flush (t : Fin cfg0.N) (h : t.val % 32 = 31) : t.val = 31 := by
  have hN : cfg0.N = 32 := N_0
  have := t.isLt
  omega

/-- The last grid point. -/
abbrev tLast : Fin cfg0.N := ⟨31, h31⟩

/-- Output 0's block index is (0, 0) at every point: its block starts at the array's origin. -/
theorem off2 (t : Fin cfg0.N) : (fun a => win0_2.index t a * main_v2_0.ty.shape.size a) = fun _ => 0 :=
  funext fun a => by fin_cases a <;> rfl

/-- What a write-back of output 0 writes: the only point that writes back is the last, and its block, which starts
    at the origin and has the array's extents, read out of the last point's contents is those contents. -/
theorem flushed_2 (c : Dev nD) (t : Fin cfg0.N) (hf : (cfg0.win 2).flush t = true) :
    (dats m 0 c).flushed 2 t = ((cfg0.win 2).blk t).view.read (Elt F) (outsAt0 m c 31 h31).1 := by
  show (cfg0.win 2).cut (grid0.coords t) ((dats m 0 c).after 2 t) = _
  rw [after0_2, outs_at m c t (val_of_flush t ((flush0_2 t).mp hf))]
  generalize (outsAt0 m c 31 h31).1 = G
  exact (Memref.read_access_unit_zero (Elt F) main_v2_0 (off2 t) (fun a => by rw [congrFun (off2 t) a]; simp) G).symm

/-- Output 0's array after the region: the last point's block covers every index of it. -/
theorem final_2 (c : Dev nD) : (dats m 0 c).arrAt 2 cfg0.N = (outsAt0 m c 31 h31).1 :=
  (dats m 0 c).arrAt_eq_of_cover 2 _ (flushed_2 m c) fun i =>
    ⟨tLast, (flush0_2 tLast).mpr rfl, by
      show i ∈ ((View.whole main_v2_0).slice (win0_2.rect tLast)).set
      rw [View.set_slice_whole]
      exact View.mem_set_unit_zero (off2 tLast) _ i⟩

/-- Output 1's block index is (0, 0) at every point: its block starts at the array's origin. -/
theorem off3 (t : Fin cfg0.N) : (fun a => win0_3.index t a * main_v2_1.ty.shape.size a) = fun _ => 0 :=
  funext fun a => by fin_cases a <;> rfl

/-- What a write-back of output 1 writes: the only point that writes back is the last, and its block, which starts
    at the origin and has the array's extents, read out of the last point's contents is those contents. -/
theorem flushed_3 (c : Dev nD) (t : Fin cfg0.N) (hf : (cfg0.win 3).flush t = true) :
    (dats m 0 c).flushed 3 t = ((cfg0.win 3).blk t).view.read (Elt F) (outsAt0 m c 31 h31).2.1 := by
  show (cfg0.win 3).cut (grid0.coords t) ((dats m 0 c).after 3 t) = _
  rw [after0_3, outs_at m c t (val_of_flush t ((flush0_3 t).mp hf))]
  generalize (outsAt0 m c 31 h31).2.1 = G
  exact (Memref.read_access_unit_zero (Elt F) main_v2_1 (off3 t) (fun a => by rw [congrFun (off3 t) a]; simp) G).symm

/-- Output 1's array after the region: the last point's block covers every index of it. -/
theorem final_3 (c : Dev nD) : (dats m 0 c).arrAt 3 cfg0.N = (outsAt0 m c 31 h31).2.1 :=
  (dats m 0 c).arrAt_eq_of_cover 3 _ (flushed_3 m c) fun i =>
    ⟨tLast, (flush0_3 tLast).mpr rfl, by
      show i ∈ ((View.whole main_v2_1).slice (win0_3.rect tLast)).set
      rw [View.set_slice_whole]
      exact View.mem_set_unit_zero (off3 tLast) _ i⟩

/-- Output 2's block index is (0, 0) at every point: its block starts at the array's origin. -/
theorem off4 (t : Fin cfg0.N) : (fun a => win0_4.index t a * main_v2_2.ty.shape.size a) = fun _ => 0 :=
  funext fun a => by fin_cases a <;> rfl

/-- What a write-back of output 2 writes: the only point that writes back is the last, and its block, which starts
    at the origin and has the array's extents, read out of the last point's contents is those contents. -/
theorem flushed_4 (c : Dev nD) (t : Fin cfg0.N) (hf : (cfg0.win 4).flush t = true) :
    (dats m 0 c).flushed 4 t = ((cfg0.win 4).blk t).view.read (Elt F) (outsAt0 m c 31 h31).2.2.1 := by
  show (cfg0.win 4).cut (grid0.coords t) ((dats m 0 c).after 4 t) = _
  rw [after0_4, outs_at m c t (val_of_flush t ((flush0_4 t).mp hf))]
  generalize (outsAt0 m c 31 h31).2.2.1 = G
  exact (Memref.read_access_unit_zero (Elt F) main_v2_2 (off4 t) (fun a => by rw [congrFun (off4 t) a]; simp) G).symm

/-- Output 2's array after the region: the last point's block covers every index of it. -/
theorem final_4 (c : Dev nD) : (dats m 0 c).arrAt 4 cfg0.N = (outsAt0 m c 31 h31).2.2.1 :=
  (dats m 0 c).arrAt_eq_of_cover 4 _ (flushed_4 m c) fun i =>
    ⟨tLast, (flush0_4 tLast).mpr rfl, by
      show i ∈ ((View.whole main_v2_2).slice (win0_4.rect tLast)).set
      rw [View.set_slice_whole]
      exact View.mem_set_unit_zero (off4 tLast) _ i⟩

/-- Output 3's block index is (0, 0) at every point: its block starts at the array's origin. -/
theorem off5 (t : Fin cfg0.N) : (fun a => win0_5.index t a * main_v2_3.ty.shape.size a) = fun _ => 0 :=
  funext fun a => by fin_cases a <;> rfl

/-- What a write-back of output 3 writes: the only point that writes back is the last, and its block, which starts
    at the origin and has the array's extents, read out of the last point's contents is those contents. -/
theorem flushed_5 (c : Dev nD) (t : Fin cfg0.N) (hf : (cfg0.win 5).flush t = true) :
    (dats m 0 c).flushed 5 t = ((cfg0.win 5).blk t).view.read (Elt F) (outsAt0 m c 31 h31).2.2.2.1 := by
  show (cfg0.win 5).cut (grid0.coords t) ((dats m 0 c).after 5 t) = _
  rw [after0_5, outs_at m c t (val_of_flush t ((flush0_5 t).mp hf))]
  generalize (outsAt0 m c 31 h31).2.2.2.1 = G
  exact (Memref.read_access_unit_zero (Elt F) main_v2_3 (off5 t) (fun a => by rw [congrFun (off5 t) a]; simp) G).symm

/-- Output 3's array after the region: the last point's block covers every index of it. -/
theorem final_5 (c : Dev nD) : (dats m 0 c).arrAt 5 cfg0.N = (outsAt0 m c 31 h31).2.2.2.1 :=
  (dats m 0 c).arrAt_eq_of_cover 5 _ (flushed_5 m c) fun i =>
    ⟨tLast, (flush0_5 tLast).mpr rfl, by
      show i ∈ ((View.whole main_v2_3).slice (win0_5.rect tLast)).set
      rw [View.set_slice_whole]
      exact View.mem_set_unit_zero (off5 tLast) _ i⟩

/-! ## The host lines after the region

Each result buffer is written by the host lines from one output array alone; with the array's contents known, the
lines' value at the result buffer is the host tail of those contents. -/

/-- The first result: lanes 0 to 9 of output 0's row. -/
theorem tail_v4 (c : Dev nD) :
    Pipeline.afterTail₀ cfgs (dats m) 0 (V0 m) [hostOps1] c main_v4 = rowOut (outsAt0 m c 31 h31).1 := by
  unfold Pipeline.afterTail₀
  show StableHlo.after hostOps1 _ (Proc.devRef .tc main_v4) = _
  after_results
  exact congrArg rowOut ((Pipeline.withArrays_arr spec0 launch0.win.arr_inj c _ _ 2).trans (final_2 m c))

/-- The second result: lanes 0 to 9 of output 1's row. -/
theorem tail_v6 (c : Dev nD) :
    Pipeline.afterTail₀ cfgs (dats m) 0 (V0 m) [hostOps1] c main_v6 = rowOut (outsAt0 m c 31 h31).2.1 := by
  unfold Pipeline.afterTail₀
  show StableHlo.after hostOps1 _ (Proc.devRef .tc main_v6) = _
  after_results
  exact congrArg rowOut ((Pipeline.withArrays_arr spec0 launch0.win.arr_inj c _ _ 3).trans (final_3 m c))

/-- The third result: output 2's one entry. -/
theorem tail_v7 (c : Dev nD) :
    Pipeline.afterTail₀ cfgs (dats m) 0 (V0 m) [hostOps1] c main_v7 = scalOut (outsAt0 m c 31 h31).2.2.1 := by
  unfold Pipeline.afterTail₀
  show StableHlo.after hostOps1 _ (Proc.devRef .tc main_v7) = _
  after_results
  exact congrArg scalOut ((Pipeline.withArrays_arr spec0 launch0.win.arr_inj c _ _ 4).trans (final_4 m c))

/-- The fourth result: output 3's one entry. -/
theorem tail_v8 (c : Dev nD) :
    Pipeline.afterTail₀ cfgs (dats m) 0 (V0 m) [hostOps1] c main_v8 = scalOut (outsAt0 m c 31 h31).2.2.2.1 := by
  unfold Pipeline.afterTail₀
  show StableHlo.after hostOps1 _ (Proc.devRef .tc main_v8) = _
  after_results
  exact congrArg scalOut ((Pipeline.withArrays_arr spec0 launch0.win.arr_inj c _ _ 5).trans (final_5 m c))

/-- The kernel program's run with its four results named: each is the host tail of what the last grid point left
    in the matching output's staging buffer; the two arguments end unchanged. -/
theorem kernel_run : θ_run defs (onTc (τ := τ) (main (F := F))) ⟨m, fun _ => 0, ρ⟩ (fun r => ∀ c : Dev nD,
      r.2.mem ((c.tc : Thread nD τ).loc main_v4) = rowOut (outsAt0 m c 31 h31).1
      ∧ r.2.mem ((c.tc : Thread nD τ).loc main_v6) = rowOut (outsAt0 m c 31 h31).2.1
      ∧ r.2.mem ((c.tc : Thread nD τ).loc main_v7) = scalOut (outsAt0 m c 31 h31).2.2.1
      ∧ r.2.mem ((c.tc : Thread nD τ).loc main_v8) = scalOut (outsAt0 m c 31 h31).2.2.2.1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  -- every buffer named here bypasses the region (none is a window's array), so the run leaves it at the value the host
  -- lines after the region compute; the four results are read by the lemmas above, the arguments are written by no line
  (θ_run defs _ _).mono (fun _ h c =>
    ⟨((h c).2 main_v4 (Pipeline.mem_restRefs_of main_v4 (by decide) (by decide))).trans (tail_v4 m c),
     ((h c).2 main_v6 (Pipeline.mem_restRefs_of main_v6 (by decide) (by decide))).trans (tail_v6 m c),
     ((h c).2 main_v7 (Pipeline.mem_restRefs_of main_v7 (by decide) (by decide))).trans (tail_v7 m c),
     ((h c).2 main_v8 (Pipeline.mem_restRefs_of main_v8 (by decide) (by decide))).trans (tail_v8 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hist

end
-- ==== Proof.Bridge.lean ====
/-
  The kernel's three final rows against the reference's three per-bin sums, and the four results.

  Lane `l < 10` of a final row is the sum over the 32 grid points of the tile sums of bin `l`; each tile entry is an
  entry of the flat argument, with the same bin index, confidence and label on both sides; and the 32 tiles together
  are the flat array, each entry once. So lane `l` of the count, label-sum and confidence-sum rows is the reference's
  scatter-add at bin `l`. Lanes 10 to 127 of the count row gain nothing at any point and stay zero. The last step,
  from the sums to the four results, is then the same on both sides.
-/
import proofs.«120145_j43946105373039_1_alg».proof.Proof.Fold
import proofs.«120145_j43946105373039_1_alg».proof.Proof.Reindex
import proofs.«120145_j43946105373039_1_alg».proof.Proof.Pointwise
import proofs.«120145_j43946105373039_1_alg».proof.Proof.RefSide
import proofs.«120145_j43946105373039_1_alg».proof.Proof.Tails
import proofs.«120145_j43946105373039_1_alg».proof.Proof.Arrays

set_option maxRecDepth 16384

noncomputable section

open Idealize.ShloMosaic Idealize.ShloMosaic.TcCoe Idealize.SL.Sem

namespace Cert.Hist

open Idealize.ShloMosaic.ValueIdx Cert.KernelIdeal.Hist Cert.ReferenceIdeal.Read Cert.ReferenceIdeal.Hist Cert.KernelIdeal.Gen

variable (m : (ℓ : Loc Cert.KernelIdeal.nD Cert.KernelIdeal.τ Cert.KernelIdeal.sig) → Buf (Elt Ideal) ℓ) (c : Dev Cert.KernelIdeal.nD)

/-- The flat logit array, as the reference takes it. -/
abbrev argX : (⟨Cert.ReferenceIdeal.S33554432, .f32⟩ : BufTy).Contents (Elt Ideal) :=
  m ((c.tc : Thread Cert.KernelIdeal.nD Cert.KernelIdeal.τ).loc Cert.KernelIdeal.main_arg0)
/-- The flat label array, as the reference takes it. -/
abbrev argY : (⟨Cert.ReferenceIdeal.S33554432, .i32⟩ : BufTy).Contents (Elt Ideal) :=
  m ((c.tc : Thread Cert.KernelIdeal.nD Cert.KernelIdeal.τ).loc Cert.KernelIdeal.main_arg1)

/-- A grid point as a number below 32. -/
abbrev pt (t : Fin Cert.KernelIdeal.cfg0.N) : Fin 32 := ⟨t.val, lt_of_lt_of_eq t.isLt N_0⟩

/-- The tiles of the 32 points are the flat array, each entry once. -/
theorem sum_tiles (G : Fin 33554432 → EReal) :
    ∑ t : Fin Cert.KernelIdeal.cfg0.N, ∑ r : Fin 8192, ∑ q : Fin 128, G (flat (pt t) r q) = ∑ j : Fin 33554432, G j := by
  rw [sum_flat G]
  exact Fintype.sum_equiv (finCongr N_0) _ _ (fun t => rfl)

/-- What the tile of point `t` adds to lane `l < 10`, in terms of the flat arrays: the sum, over the tile's entries
    whose reference bin index is `l`, of a per-entry value `Uf` that the kernel's `u` agrees with entry by entry. -/
theorem tile_ref (t : Fin Cert.KernelIdeal.cfg0.N) (l : Fin 10) (u : Cert.KernelIdeal.S8192x128.Idx → EReal) (Uf : Fin 33554432 → EReal)
    (hu : ∀ r q, u (ix2 r q) = Uf (flat (pt t) r q)) :
    tileSum (binsOf (xblk m c t)) u (lane10 l)
      = ∑ r : Fin 8192, ∑ q : Fin 128,
          (if val_main_v12 (F := Ideal) (argX m c) (ix1 (flat (pt t) r q)) = BitVec.ofNat 32 l.val
            then Uf (flat (pt t) r q) else 0) := by
  unfold tileSum
  rw [if_pos (show (lane10 l).val < 10 from l.isLt)]
  refine Finset.sum_congr rfl fun r _ => Finset.sum_congr rfl fun q _ => ?_
  rw [bins_pt (xblk m c t) (argX m c) (ix2 r q) (ix1 (flat (pt t) r q)) (xblk_apply m c t r q), hu r q]
  rfl

/-- Lane `l < 10` of the final count row is the reference's count of bin `l`. -/
theorem cnt_ref (h : 31 < Cert.KernelIdeal.cfg0.N) (l : Fin 10) :
    (rows m c 31 h).1 (ix2 (0 : Fin 1) (lane10 l)) = val_main_v16 (F := Ideal) (argX m c) (ix1 l) := by
  rw [cnt_final, ref_cnt_apply,
    ← sum_tiles (fun j => if val_main_v12 (F := Ideal) (argX m c) (ix1 j) = BitVec.ofNat 32 l.val then (1 : EReal) else 0)]
  exact Finset.sum_congr rfl fun t _ => tile_ref m c t l (fun _ => 1) (fun _ => 1) (fun _ _ => rfl)

/-- Lane `l < 10` of the final label-sum row is the reference's label sum of bin `l`. -/
theorem lab_ref (h : 31 < Cert.KernelIdeal.cfg0.N) (l : Fin 10) :
    (rows m c 31 h).2.1 (ix2 (0 : Fin 1) (lane10 l)) = val_main_v20 (F := Ideal) (argX m c) (argY m c) (ix1 l) := by
  rw [lab_final, ref_lab_apply,
    ← sum_tiles (fun j => if val_main_v12 (F := Ideal) (argX m c) (ix1 j) = BitVec.ofNat 32 l.val
      then val_main_v17 (F := Ideal) (argY m c) (ix1 j) else 0)]
  exact Finset.sum_congr rfl fun t _ => tile_ref m c t l (labOf (yblk m c t))
    (fun j => val_main_v17 (F := Ideal) (argY m c) (ix1 j))
    (fun r q => lab_pt (yblk m c t) (argY m c) (ix2 r q) (ix1 (flat (pt t) r q)) (yblk_apply m c t r q))

/-- Lane `l < 10` of the final confidence-sum row is the reference's confidence sum of bin `l`. -/
theorem cnf_ref (h : 31 < Cert.KernelIdeal.cfg0.N) (l : Fin 10) :
    (rows m c 31 h).2.2 (ix2 (0 : Fin 1) (lane10 l)) = val_main_v23 (F := Ideal) (argX m c) (ix1 l) := by
  rw [cnf_final, ref_cnf_apply,
    ← sum_tiles (fun j => if val_main_v12 (F := Ideal) (argX m c) (ix1 j) = BitVec.ofNat 32 l.val
      then val_main_v5 (F := Ideal) (argX m c) (ix1 j) else 0)]
  exact Finset.sum_congr rfl fun t _ => tile_ref m c t l (confOf (xblk m c t))
    (fun j => val_main_v5 (F := Ideal) (argX m c) (ix1 j))
    (fun r q => conf_pt (xblk m c t) (argX m c) (ix2 r q) (ix1 (flat (pt t) r q)) (xblk_apply m c t r q))

/-- Lanes 10 to 127 of the final count row are zero: no point adds anything there. -/
theorem cnt_hi (h : 31 < Cert.KernelIdeal.cfg0.N) (l : Fin 128) (hl : 10 ≤ l.val) :
    (rows m c 31 h).1 (ix2 (0 : Fin 1) l) = 0 := by
  rw [cnt_final]
  exact Finset.sum_eq_zero fun t _ => by unfold tileSum; rw [if_neg (by omega)]

/-- The kernel's first result, the per-bin positive rate, is the reference's. -/
theorem res_pos (h : 31 < Cert.KernelIdeal.cfg0.N) :
    rowOut (outsAt0 m c 31 h).1 = val_main_v28 (F := Ideal) (argX m c) (argY m c) := by
  rw [(outs_last m c h).1]
  funext i
  obtain ⟨l, rfl⟩ : ∃ l : Fin 10, i = ix1 l := ⟨i 0, eq_ix1 i⟩
  rw [rowOut_apply]
  exact pos_eq (x0 := argX m c) (x1 := argY m c) (cnt := (rows m c 31 h).1) (ls := (rows m c 31 h).2.1)
    (hcnt := cnt_ref m c h) (hls := lab_ref m c h) l

/-- The kernel's second result, the per-bin mean confidence, is the reference's. -/
theorem res_cnf (h : 31 < Cert.KernelIdeal.cfg0.N) :
    rowOut (outsAt0 m c 31 h).2.1 = val_main_v30 (F := Ideal) (argX m c) := by
  rw [(outs_last m c h).2.1]
  funext i
  obtain ⟨l, rfl⟩ : ∃ l : Fin 10, i = ix1 l := ⟨i 0, eq_ix1 i⟩
  rw [rowOut_apply]
  exact cnf_eq (x0 := argX m c) (cnt := (rows m c 31 h).1) (cs := (rows m c 31 h).2.2)
    (hcnt := cnt_ref m c h) (hcs := cnf_ref m c h) l

/-- The kernel's third result, the calibration error, is the reference's. -/
theorem res_ece (h : 31 < Cert.KernelIdeal.cfg0.N) :
    scalOut (outsAt0 m c 31 h).2.2.1 = val_main_v34 (F := Ideal) (argX m c) (argY m c) := by
  rw [(outs_last m c h).2.2.1]
  funext i
  rw [eq_ix0 i, scalOut_apply]
  exact ece_eq (x0 := argX m c) (x1 := argY m c) (hcnt := cnt_ref m c h) (hls := lab_ref m c h)
    (hcs := cnf_ref m c h) (hhi := cnt_hi m c h)

/-- The kernel's fourth result, the maximum calibration error, is the reference's. -/
theorem res_max (h : 31 < Cert.KernelIdeal.cfg0.N) :
    scalOut (outsAt0 m c 31 h).2.2.2.1 = val_main_v35 (F := Ideal) (argX m c) (argY m c) := by
  rw [(outs_last m c h).2.2.2]
  funext i
  rw [eq_ix0 i, scalOut_apply]
  exact max_eq (x0 := argX m c) (x1 := argY m c) (hcnt := cnt_ref m c h) (hls := lab_ref m c h)
    (hcs := cnf_ref m c h) (hhi := cnt_hi m c h)

end Cert.Hist

end
-- ==== Proof.lean ====
/-
  Calibration error over ten confidence bins: a grid kernel against its plain reference, equal over the extended reals.

  Both programs take 33554432 logits and labels. Each entry has a confidence `1 / (1 + e^(-x))` and a bin index
  `min 9 (max 0 (ceil (10 * confidence) - 1))`. The reference scatter-adds ones, labels and confidences into ten bins.
  The kernel walks the array in 32 tiles of 8192 x 128: at each tile and for each bin it sums the masked ones, labels
  and confidences of the tile and adds the three scalars into lane `b` of three 128-lane rows it keeps across the tiles.
  Over the extended reals addition is associative and commutative, `0 * x = 0` and `1 * x = x`, so lane `b < 10` of a row
  after the last tile is the sum over all entries of bin `b`, which is the reference's scatter-add, and lanes 10 to
  127 stay zero. From the three per-bin sums both programs compute the same four results: the positive rate and the
  mean confidence where the count is positive (else zero), the sum of their absolute differences, and its maximum;
  the kernel's 118 extra lanes contribute zeros, which change neither the sum nor the maximum of non-negative terms.

  The modules: Step (one tile's update as pure functions), PiecesA / PiecesB / PiecesC (what the first, a middle and the
  last grid point leave in the rows and results), Points (induction over the grid points), Arrays (the result arrays and
  the host lines after the region), LaneMath and Fold (the rows lane by lane), Reindex (the flat array as tiles),
  Pointwise (entry by entry both sides compute the same), RefSide (a scatter-add as a sum), Tails (the last step),
  Bridge (the two sides joined). The frames of the two kernel programs are the generated ones; the reference's frame
  is its run with the results dropped.
-/
import proofs.«120145_j43946105373039_1_alg».proof.Defs
import proofs.«120145_j43946105373039_1_alg».proof.Proof.Gen.Kernel
import proofs.«120145_j43946105373039_1_alg».proof.Proof.Gen.Kernel.Skeleton
import proofs.«120145_j43946105373039_1_alg».proof.Proof.Gen.Kernel.Launch
import proofs.«120145_j43946105373039_1_alg».proof.Proof.Gen.Kernel.Points
import proofs.«120145_j43946105373039_1_alg».proof.Proof.Gen.Kernel.Frame
import proofs.«120145_j43946105373039_1_alg».proof.Proof.Gen.KernelIdeal
import proofs.«120145_j43946105373039_1_alg».proof.Proof.Gen.KernelIdeal.Skeleton
import proofs.«120145_j43946105373039_1_alg».proof.Proof.Gen.KernelIdeal.Launch
import proofs.«120145_j43946105373039_1_alg».proof.Proof.Gen.KernelIdeal.Points
import proofs.«120145_j43946105373039_1_alg».proof.Proof.Gen.KernelIdeal.Frame
import proofs.«120145_j43946105373039_1_alg».proof.Proof.Gen.ReferenceIdeal
import proofs.«120145_j43946105373039_1_alg».proof.Proof.Gen.Pre_finite_inputs
import proofs.«120145_j43946105373039_1_alg».proof.Proof.RefRun
import proofs.«120145_j43946105373039_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, with the four results dropped. -/
theorem frame_ri : Cert.frame_ReferenceIdeal := fun m ρ _ =>
  (θ_run Cert.ReferenceIdeal.defs _ _).mono (fun _ h c => ⟨(h c).2.2.2.2.1, (h c).2.2.2.2.2⟩)
    (Cert.ReferenceIdeal.Value.run (F := Ideal) m ρ)

/-- The ideal pass rewrote nothing. -/
theorem preserves : Cert.preserves_Kernel_KernelIdeal := trivial

/-- Over the extended reals the kernel's four results are the reference's, from arguments that agree. -/
theorem algebraic : Cert.algebraic_KernelIdeal_ReferenceIdeal := by
  intro m ρ m' ρ' _ hagree
  refine ⟨fun c => Cert.KernelIdeal.Hist.rowOut (Cert.KernelIdeal.Gen.outsAt0 m c 31 Cert.KernelIdeal.Hist.h31).1,
    fun c => Cert.KernelIdeal.Hist.rowOut (Cert.KernelIdeal.Gen.outsAt0 m c 31 Cert.KernelIdeal.Hist.h31).2.1,
    fun c => Cert.KernelIdeal.Hist.scalOut (Cert.KernelIdeal.Gen.outsAt0 m c 31 Cert.KernelIdeal.Hist.h31).2.2.1,
    fun c => Cert.KernelIdeal.Hist.scalOut (Cert.KernelIdeal.Gen.outsAt0 m c 31 Cert.KernelIdeal.Hist.h31).2.2.2.1,
    Cert.KernelIdeal.Hist.kernel_run m ρ, ?_⟩
  refine (θ_run Cert.ReferenceIdeal.defs _ _).mono (fun _ h c => ?_) (Cert.ReferenceIdeal.Value.run (F := Ideal) m' ρ')
  obtain ⟨h28, h30, h34, h35, ha0, ha1⟩ := h c
  refine ⟨h28.trans ?_, h30.trans ?_, h34.trans ?_, h35.trans ?_, ha0, ha1⟩
  · rw [Cert.ReferenceIdeal.Read.val_main_v28_eq, (hagree c).1, (hagree c).2]
    exact (Cert.Hist.res_pos m c Cert.KernelIdeal.Hist.h31).symm
  · rw [Cert.ReferenceIdeal.Read.val_main_v30_eq, (hagree c).1]
    exact (Cert.Hist.res_cnf m c Cert.KernelIdeal.Hist.h31).symm
  · rw [Cert.ReferenceIdeal.Read.val_main_v34_eq, (hagree c).1, (hagree c).2]
    exact (Cert.Hist.res_ece m c Cert.KernelIdeal.Hist.h31).symm
  · rw [Cert.ReferenceIdeal.Read.val_main_v35_eq, (hagree c).1, (hagree c).2]
    exact (Cert.Hist.res_max m c Cert.KernelIdeal.Hist.h31).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
